-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x40 .f32) (main_arg11 : FVec F S40 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg10
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x40 .f32) (main_arg11 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x40 .f32) (main_arg11 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1000x128 : Shape := ⟨2, ![1000, 128]⟩
abbrev S850000x128 : Shape := ⟨2, ![850000, 128]⟩
abbrev S1x128 : Shape := ⟨2, ![1, 128]⟩
abbrev S50000x40 : Shape := ⟨2, ![50000, 40]⟩
abbrev S50000x1 : Shape := ⟨2, ![50000, 1]⟩

abbrev nBuf : Space → Nat
  | .hbm => 196
  | .vmem => 15
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x40, .f32⟩
  | 11 => ⟨S40, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x128, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x128, .f32⟩
  | 58 => ⟨S850000x1, .f32⟩
  | 59 => ⟨S850000x128, .f32⟩
  | 60 => ⟨S850000x128, .f32⟩
  | 61 => ⟨S_, .f32⟩
  | 62 => ⟨S50000x128, .f32⟩
  | 63 => ⟨S850000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S128, .f32⟩
  | 70 => ⟨S_, .f32⟩
  | 71 => ⟨S128, .f32⟩
  | 72 => ⟨S128, .f32⟩
  | 73 => ⟨S1x128, .f32⟩
  | 74 => ⟨S50000x128, .f32⟩
  | 75 => ⟨S50000x128, .f32⟩
  | 76 => ⟨S50000x128, .f32⟩
  | 77 => ⟨S_, .f32⟩
  | 78 => ⟨S128, .f32⟩
  | 79 => ⟨S_, .f32⟩
  | 80 => ⟨S128, .f32⟩
  | 81 => ⟨S128, .f32⟩
  | 82 => ⟨S1x128, .f32⟩
  | 83 => ⟨S50000x128, .f32⟩
  | 84 => ⟨S50000x128, .f32⟩
  | 85 => ⟨S_, .f32⟩
  | 86 => ⟨S128, .f32⟩
  | 87 => ⟨S128, .f32⟩
  | 88 => ⟨S128, .f32⟩
  | 89 => ⟨S1x128, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S50000x128, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000x128, .f32⟩
  | 111 => ⟨S850000x1, .f32⟩
  | 112 => ⟨S850000x128, .f32⟩
  | 113 => ⟨S850000x128, .f32⟩
  | 114 => ⟨S_, .f32⟩
  | 115 => ⟨S50000x128, .f32⟩
  | 116 => ⟨S850000x1, .i32⟩
  | 117 => ⟨S50000x128, .f32⟩
  | 118 => ⟨S1x128, .f32⟩
  | 119 => ⟨S50000x128, .f32⟩
  | 120 => ⟨S50000x128, .f32⟩
  | 121 => ⟨S_, .f32⟩
  | 122 => ⟨S128, .f32⟩
  | 123 => ⟨S_, .f32⟩
  | 124 => ⟨S128, .f32⟩
  | 125 => ⟨S128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S128, .f32⟩
  | 4 => ⟨S_, .f32⟩
  | 5 => ⟨S128, .f32⟩
  | 6 => ⟨S128, .f32⟩
  | 7 => ⟨S1x128, .f32⟩
  | 8 => ⟨S50000x128, .f32⟩
  | 9 => ⟨S50000x128, .f32⟩
  | 10 => ⟨S_, .f32⟩
  | 11 => ⟨S128, .f32⟩
  | 12 => ⟨S128, .f32⟩
  | 13 => ⟨S128, .f32⟩
  | 14 => ⟨S1x128, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S_, .i32⟩
  | 27 => ⟨S_, .f32⟩
  | 28 => ⟨S128x128, .f32⟩
  | 29 => ⟨S_, .i32⟩
  | 30 => ⟨S_, .f32⟩
  | 31 => ⟨S128, .f32⟩
  | 32 => ⟨S50000x128, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000x128, .f32⟩
  | 42 => ⟨S850000x1, .f32⟩
  | 43 => ⟨S850000x128, .f32⟩
  | 44 => ⟨S850000x128, .f32⟩
  | 45 => ⟨S_, .f32⟩
  | 46 => ⟨S50000x128, .f32⟩
  | 47 => ⟨S850000x1, .i32⟩
  | 48 => ⟨S50000x128, .f32⟩
  | 49 => ⟨S1x128, .f32⟩
  | 50 => ⟨S50000x128, .f32⟩
  | 51 => ⟨S50000x128, .f32⟩
  | 52 => ⟨S50000x40, .f32⟩
  | 53 => ⟨S_, .f32⟩
  | 54 => ⟨S50000, .f32⟩
  | 55 => ⟨S_, .f32⟩
  | 56 => ⟨S50000, .f32⟩
  | 57 => ⟨S50000, .f32⟩
  | 58 => ⟨S50000x1, .f32⟩
  | 59 => ⟨S50000x40, .f32⟩
  | 60 => ⟨S50000x40, .f32⟩
  | 61 => ⟨S50000x40, .f32⟩
  | 62 => ⟨S_, .f32⟩
  | 63 => ⟨S50000, .f32⟩
  | 64 => ⟨S50000x1, .f32⟩
  | 65 => ⟨S50000x1, .f32⟩
  | 66 => ⟨S50000x40, .f32⟩
  | 67 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S128x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S128x128, .f32⟩
  | .local _ .vmem, ⟨13, _⟩ => ⟨S1000x128, .f32⟩
  | .local _ .vmem, ⟨14, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call0_cst : Ref sig .tc := ⟨.hbm, 98, rfl⟩
abbrev main_call0_v0 : Ref sig .tc := ⟨.hbm, 99, rfl⟩
abbrev main_v71 : Ref sig .tc := ⟨.hbm, 100, rfl⟩
abbrev main_v72 : Ref sig .tc := ⟨.hbm, 101, rfl⟩
abbrev main_c_13 : Ref sig .tc := ⟨.hbm, 102, rfl⟩
abbrev main_v73 : Ref sig .tc := ⟨.hbm, 103, rfl⟩
abbrev main_v74 : Ref sig .tc := ⟨.hbm, 104, rfl⟩
abbrev main_c_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_15 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_16 : Ref sig .tc := ⟨.hbm, 121, rfl⟩
abbrev main_v89 : Ref sig .tc := ⟨.hbm, 122, rfl⟩
abbrev main_cst_17 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_18 : Ref sig .tc := ⟨.hbm, 130, rfl⟩
abbrev main_v96 : Ref sig .tc := ⟨.hbm, 131, rfl⟩
abbrev main_cst_19 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_20 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_call1_cst : Ref sig .tc := ⟨.hbm, 151, rfl⟩
abbrev main_call1_v0 : Ref sig .tc := ⟨.hbm, 152, rfl⟩
abbrev main_v114 : Ref sig .tc := ⟨.hbm, 153, rfl⟩
abbrev main_c_21 : Ref sig .tc := ⟨.hbm, 154, rfl⟩
abbrev main_call2_v0 : Ref sig .tc := ⟨.hbm, 155, rfl⟩
abbrev main_v115 : Ref sig .tc := ⟨.hbm, 156, rfl⟩
abbrev main_c_22 : Ref sig .tc := ⟨.hbm, 157, rfl⟩
abbrev main_call3_v0 : Ref sig .tc := ⟨.hbm, 158, rfl⟩
abbrev main_v116 : Ref sig .tc := ⟨.hbm, 159, rfl⟩
abbrev main_v117 : Ref sig .tc := ⟨.hbm, 160, rfl⟩
abbrev main_c_23 : Ref sig .tc := ⟨.hbm, 161, rfl⟩
abbrev main_v118 : Ref sig .tc := ⟨.hbm, 162, rfl⟩
abbrev main_v119 : Ref sig .tc := ⟨.hbm, 163, rfl⟩
abbrev main_c_24 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_25 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_call4_cst : Ref sig .tc := ⟨.hbm, 181, rfl⟩
abbrev main_call4_v0 : Ref sig .tc := ⟨.hbm, 182, rfl⟩
abbrev main_call4_cst_0 : Ref sig .tc := ⟨.hbm, 183, rfl⟩
abbrev main_call4_v1 : Ref sig .tc := ⟨.hbm, 184, rfl⟩
abbrev main_call4_v2 : Ref sig .tc := ⟨.hbm, 185, rfl⟩
abbrev main_call4_v3 : Ref sig .tc := ⟨.hbm, 186, rfl⟩
abbrev main_call4_v4 : Ref sig .tc := ⟨.hbm, 187, rfl⟩
abbrev main_call4_v5 : Ref sig .tc := ⟨.hbm, 188, rfl⟩
abbrev main_call4_v6 : Ref sig .tc := ⟨.hbm, 189, rfl⟩
abbrev main_call4_cst_1 : Ref sig .tc := ⟨.hbm, 190, rfl⟩
abbrev main_call4_v7 : Ref sig .tc := ⟨.hbm, 191, rfl⟩
abbrev main_call4_v8 : Ref sig .tc := ⟨.hbm, 192, rfl⟩
abbrev main_call4_v9 : Ref sig .tc := ⟨.hbm, 193, rfl⟩
abbrev main_call4_v10 : Ref sig .tc := ⟨.hbm, 194, rfl⟩
abbrev main_v135 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  shapeCasts_S1000x128_S1000x128 : S1000x128.ShapeCasts S1000x128
  pads_S128x40_S128x128_000_0880 : S128x40.Pads (![0, 0] : Fin 2 → Nat) ![0, 88] ![0, 0] S128x128
  pads_S40_S128_0880 : S40.Pads (![0] : Fin 1 → Nat) ![88] ![0] S128
  shapeCasts_S128x128_S128x128 : S128x128.ShapeCasts S128x128
  slices_S50000x128_S50000x40_0_0 : S50000x128.Slices ![0, 0] S50000x40
  reducesTo_S50000x40_S50000_d1 : S50000x40.ReducesTo [1] S50000
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S1000x128_S128x128_S1000x128_1_0_0_1_n_n_wf : DotDims.WF S1000x128 S128x128 S1000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S50000x128.size a
  hwx1_2 : ∀ i : grid1.Coords, EltTy.bits .f32 = 32 ∨ (Rect.block (s := S50000x128) S1000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S50000x128.size a
  hwx2_2 : ∀ i : grid2.Coords, EltTy.bits .f32 = 32 ∨ (Rect.block (s := S50000x128) S1000x128.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v71) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v72) S1000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v114) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v115) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v117) S1000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 189
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x40, .f32⟩
  | 11 => ⟨S40, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x128, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x128, .f32⟩
  | 58 => ⟨S850000x1, .f32⟩
  | 59 => ⟨S850000x128, .f32⟩
  | 60 => ⟨S850000x128, .f32⟩
  | 61 => ⟨S_, .f32⟩
  | 62 => ⟨S50000x128, .f32⟩
  | 63 => ⟨S850000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S128, .f32⟩
  | 70 => ⟨S_, .f32⟩
  | 71 => ⟨S128, .f32⟩
  | 72 => ⟨S128, .f32⟩
  | 73 => ⟨S1x128, .f32⟩
  | 74 => ⟨S50000x128, .f32⟩
  | 75 => ⟨S50000x128, .f32⟩
  | 76 => ⟨S50000x128, .f32⟩
  | 77 => ⟨S_, .f32⟩
  | 78 => ⟨S128, .f32⟩
  | 79 => ⟨S_, .f32⟩
  | 80 => ⟨S128, .f32⟩
  | 81 => ⟨S128, .f32⟩
  | 82 => ⟨S1x128, .f32⟩
  | 83 => ⟨S50000x128, .f32⟩
  | 84 => ⟨S50000x128, .f32⟩
  | 85 => ⟨S_, .f32⟩
  | 86 => ⟨S128, .f32⟩
  | 87 => ⟨S128, .f32⟩
  | 88 => ⟨S128, .f32⟩
  | 89 => ⟨S1x128, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S50000x128, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000x128, .f32⟩
  | 111 => ⟨S850000x1, .f32⟩
  | 112 => ⟨S850000x128, .f32⟩
  | 113 => ⟨S850000x128, .f32⟩
  | 114 => ⟨S_, .f32⟩
  | 115 => ⟨S50000x128, .f32⟩
  | 116 => ⟨S850000x1, .i32⟩
  | 117 => ⟨S50000x128, .f32⟩
  | 118 => ⟨S1x128, .f32⟩
  | 119 => ⟨S50000x128, .f32⟩
  | 120 => ⟨S50000x128, .f32⟩
  | 121 => ⟨S_, .f32⟩
  | 122 => ⟨S128, .f32⟩
  | 123 => ⟨S_, .f32⟩
  | 124 => ⟨S128, .f32⟩
  | 125 => ⟨S128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S128, .f32⟩
  | 4 => ⟨S_, .f32⟩
  | 5 => ⟨S128, .f32⟩
  | 6 => ⟨S128, .f32⟩
  | 7 => ⟨S1x128, .f32⟩
  | 8 => ⟨S50000x128, .f32⟩
  | 9 => ⟨S50000x128, .f32⟩
  | 10 => ⟨S_, .f32⟩
  | 11 => ⟨S128, .f32⟩
  | 12 => ⟨S128, .f32⟩
  | 13 => ⟨S128, .f32⟩
  | 14 => ⟨S1x128, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S50000x40, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000x40, .f32⟩
  | 36 => ⟨S850000x1, .f32⟩
  | 37 => ⟨S850000x40, .f32⟩
  | 38 => ⟨S850000x40, .f32⟩
  | 39 => ⟨S_, .f32⟩
  | 40 => ⟨S50000x40, .f32⟩
  | 41 => ⟨S850000x1, .i32⟩
  | 42 => ⟨S50000x40, .f32⟩
  | 43 => ⟨S1x40, .f32⟩
  | 44 => ⟨S50000x40, .f32⟩
  | 45 => ⟨S50000x40, .f32⟩
  | 46 => ⟨S_, .f32⟩
  | 47 => ⟨S50000, .f32⟩
  | 48 => ⟨S_, .f32⟩
  | 49 => ⟨S50000, .f32⟩
  | 50 => ⟨S50000, .f32⟩
  | 51 => ⟨S50000x1, .f32⟩
  | 52 => ⟨S50000x40, .f32⟩
  | 53 => ⟨S50000x40, .f32⟩
  | 54 => ⟨S50000x40, .f32⟩
  | 55 => ⟨S_, .f32⟩
  | 56 => ⟨S50000, .f32⟩
  | 57 => ⟨S50000x1, .f32⟩
  | 58 => ⟨S50000x1, .f32⟩
  | 59 => ⟨S50000x40, .f32⟩
  | 60 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call0_cst : Ref sig .tc := ⟨.hbm, 98, rfl⟩
abbrev main_call0_v0 : Ref sig .tc := ⟨.hbm, 99, rfl⟩
abbrev main_v71 : Ref sig .tc := ⟨.hbm, 100, rfl⟩
abbrev main_v72 : Ref sig .tc := ⟨.hbm, 101, rfl⟩
abbrev main_c_13 : Ref sig .tc := ⟨.hbm, 102, rfl⟩
abbrev main_v73 : Ref sig .tc := ⟨.hbm, 103, rfl⟩
abbrev main_v74 : Ref sig .tc := ⟨.hbm, 104, rfl⟩
abbrev main_c_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_15 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_16 : Ref sig .tc := ⟨.hbm, 121, rfl⟩
abbrev main_v89 : Ref sig .tc := ⟨.hbm, 122, rfl⟩
abbrev main_cst_17 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_18 : Ref sig .tc := ⟨.hbm, 130, rfl⟩
abbrev main_v96 : Ref sig .tc := ⟨.hbm, 131, rfl⟩
abbrev main_cst_19 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_20 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_call1_cst : Ref sig .tc := ⟨.hbm, 151, rfl⟩
abbrev main_call1_v0 : Ref sig .tc := ⟨.hbm, 152, rfl⟩
abbrev main_v114 : Ref sig .tc := ⟨.hbm, 153, rfl⟩
abbrev main_v115 : Ref sig .tc := ⟨.hbm, 154, rfl⟩
abbrev main_c_21 : Ref sig .tc := ⟨.hbm, 155, rfl⟩
abbrev main_v116 : Ref sig .tc := ⟨.hbm, 156, rfl⟩
abbrev main_v117 : Ref sig .tc := ⟨.hbm, 157, rfl⟩
abbrev main_c_22 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_23 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_call2_cst : Ref sig .tc := ⟨.hbm, 174, rfl⟩
abbrev main_call2_v0 : Ref sig .tc := ⟨.hbm, 175, rfl⟩
abbrev main_call2_cst_0 : Ref sig .tc := ⟨.hbm, 176, rfl⟩
abbrev main_call2_v1 : Ref sig .tc := ⟨.hbm, 177, rfl⟩
abbrev main_call2_v2 : Ref sig .tc := ⟨.hbm, 178, rfl⟩
abbrev main_call2_v3 : Ref sig .tc := ⟨.hbm, 179, rfl⟩
abbrev main_call2_v4 : Ref sig .tc := ⟨.hbm, 180, rfl⟩
abbrev main_call2_v5 : Ref sig .tc := ⟨.hbm, 181, rfl⟩
abbrev main_call2_v6 : Ref sig .tc := ⟨.hbm, 182, rfl⟩
abbrev main_call2_cst_1 : Ref sig .tc := ⟨.hbm, 183, rfl⟩
abbrev main_call2_v7 : Ref sig .tc := ⟨.hbm, 184, rfl⟩
abbrev main_call2_v8 : Ref sig .tc := ⟨.hbm, 185, rfl⟩
abbrev main_call2_v9 : Ref sig .tc := ⟨.hbm, 186, rfl⟩
abbrev main_call2_v10 : Ref sig .tc := ⟨.hbm, 187, rfl⟩
abbrev main_v132 : Ref sig .tc := ⟨.hbm, 188, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.Carry.lean ====
/-
  The values that cross a pallas_call or a stretch of host operations unchanged.

  @main's buffers are written once each: a buffer that no operation of a stretch writes holds after the stretch what it
  held before, and a region changes only its own three arrays. So the edge index vectors (`main_v3`, `main_v6`) and the
  edge coefficients (`main_v28`), computed before the first region, are read by every later layer at the value they had
  when the first region was entered, and an argument array is read everywhere at its launch contents.
-/
import proofs.«411127_j66872640799057_3_alg».proof.Proof.Gen.KernelIdeal.Frame
import Idealize.ShloMosaic.Lib.StableHlo.Run

set_option maxRecDepth 16384

noncomputable section

namespace Cert.KernelIdeal.Gen

open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg) (c : Dev nD)

/-- Opens the boundary contents down to the last region's exit (or the launch) and reads the stretch's operations at the
    buffer asked for: what is left is stated over the contents the stretch started from. -/
macro "host_read" : tactic =>
  `(tactic| (dsimp only [W1, W3, W4, W6, W7, W8, W9, W10, W11, W13, W14, hostOps0, hostOps1, hostOps1_1, hostOps2, hostOps2_1,
      hostOps2_2, hostOps2_3, hostOps2_4, hostOps2_5, hostOps3, hostOps3_1]; after_results))

/-- A buffer that no operation of one stretch writes holds after it what it held before: each operation writes its own
    result buffer, a different reference. -/
macro "keeps" : tactic =>
  `(tactic| exact StableHlo.after_of_forall_not_mem _ _ (List.forall_iff_forall_mem.mp (by
      simp only [hostOps0, hostOps1, hostOps1_1, hostOps2, hostOps2_1, hostOps2_2, hostOps2_3, hostOps2_4, hostOps2_5, hostOps3,
        hostOps3_1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## The arguments the first region reads -/

theorem W1_arg0 : W1 m ρ c (Proc.devRef .tc main_arg0) = m ((c : Thread nD τ).loc main_arg0) :=
  calc W1 m ρ c (Proc.devRef .tc main_arg0)
    _ = W0 m ρ c (Proc.devRef .tc main_arg0) := by keeps
    _ = m ((c : Thread nD τ).loc main_arg0) := rfl
theorem W1_arg2 : W1 m ρ c (Proc.devRef .tc main_arg2) = m ((c : Thread nD τ).loc main_arg2) :=
  calc W1 m ρ c (Proc.devRef .tc main_arg2)
    _ = W0 m ρ c (Proc.devRef .tc main_arg2) := by keeps
    _ = m ((c : Thread nD τ).loc main_arg2) := rfl

/-! ## After the first region -/

theorem W2_v3 : W2 m ρ c (Proc.devRef .tc main_v3) = W1 m ρ c (Proc.devRef .tc main_v3) := W2_of_ne m ρ c main_v3 (by decide)
theorem W2_v6 : W2 m ρ c (Proc.devRef .tc main_v6) = W1 m ρ c (Proc.devRef .tc main_v6) := W2_of_ne m ρ c main_v6 (by decide)
theorem W2_v28 : W2 m ρ c (Proc.devRef .tc main_v28) = W1 m ρ c (Proc.devRef .tc main_v28) := W2_of_ne m ρ c main_v28 (by decide)
theorem W2_arg3 : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by keeps
    _ = m ((c : Thread nD τ).loc main_arg3) := rfl
theorem W2_arg4 : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by keeps
    _ = m ((c : Thread nD τ).loc main_arg4) := rfl
theorem W2_arg5 : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by keeps
    _ = m ((c : Thread nD τ).loc main_arg5) := rfl
theorem W2_arg6 : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by keeps
    _ = m ((c : Thread nD τ).loc main_arg6) := rfl
theorem W2_arg7 : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by keeps
    _ = m ((c : Thread nD τ).loc main_arg7) := rfl
theorem W2_arg8 : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := by keeps
    _ = m ((c : Thread nD τ).loc main_arg8) := rfl
theorem W2_arg9 : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := by keeps
    _ = m ((c : Thread nD τ).loc main_arg9) := rfl
theorem W2_arg10 : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := by keeps
    _ = m ((c : Thread nD τ).loc main_arg10) := rfl
theorem W2_arg11 : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := by keeps
    _ = m ((c : Thread nD τ).loc main_arg11) := rfl

/-! ## At the second region's entry and exit -/

theorem W4_arg6 : W4 m ρ c (Proc.devRef .tc main_arg6) = m ((c : Thread nD τ).loc main_arg6) :=
  calc W4 m ρ c (Proc.devRef .tc main_arg6)
    _ = W3 m ρ c (Proc.devRef .tc main_arg6) := by keeps
    _ = W2 m ρ c (Proc.devRef .tc main_arg6) := by keeps
    _ = m ((c : Thread nD τ).loc main_arg6) := W2_arg6 m ρ c

theorem W5_v3 : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := by keeps
    _ = W2 m ρ c (Proc.devRef .tc main_v3) := by keeps
    _ = W1 m ρ c (Proc.devRef .tc main_v3) := W2_v3 m ρ c
theorem W5_v6 : W5 m ρ c (Proc.devRef .tc main_v6) = W1 m ρ c (Proc.devRef .tc main_v6) :=
  calc W5 m ρ c (Proc.devRef .tc main_v6)
    _ = W4 m ρ c (Proc.devRef .tc main_v6) := W5_of_ne m ρ c main_v6 (by decide)
    _ = W3 m ρ c (Proc.devRef .tc main_v6) := by keeps
    _ = W2 m ρ c (Proc.devRef .tc main_v6) := by keeps
    _ = W1 m ρ c (Proc.devRef .tc main_v6) := W2_v6 m ρ c
theorem W5_v28 : W5 m ρ c (Proc.devRef .tc main_v28) = W1 m ρ c (Proc.devRef .tc main_v28) :=
  calc W5 m ρ c (Proc.devRef .tc main_v28)
    _ = W4 m ρ c (Proc.devRef .tc main_v28) := W5_of_ne m ρ c main_v28 (by decide)
    _ = W3 m ρ c (Proc.devRef .tc main_v28) := by keeps
    _ = W2 m ρ c (Proc.devRef .tc main_v28) := by keeps
    _ = W1 m ρ c (Proc.devRef .tc main_v28) := W2_v28 m ρ c
theorem W5_arg7 : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := by keeps
    _ = W2 m ρ c (Proc.devRef .tc main_arg7) := by keeps
    _ = m ((c : Thread nD τ).loc main_arg7) := W2_arg7 m ρ c
theorem W5_arg8 : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := by keeps
    _ = W2 m ρ c (Proc.devRef .tc main_arg8) := by keeps
    _ = m ((c : Thread nD τ).loc main_arg8) := W2_arg8 m ρ c
theorem W5_arg9 : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := by keeps
    _ = W2 m ρ c (Proc.devRef .tc main_arg9) := by keeps
    _ = m ((c : Thread nD τ).loc main_arg9) := W2_arg9 m ρ c
theorem W5_arg10 : W5 m ρ c (Proc.devRef .tc main_arg10) = m ((c : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := by keeps
    _ = W2 m ρ c (Proc.devRef .tc main_arg10) := by keeps
    _ = m ((c : Thread nD τ).loc main_arg10) := W2_arg10 m ρ c
theorem W5_arg11 : W5 m ρ c (Proc.devRef .tc main_arg11) = m ((c : Thread nD τ).loc main_arg11) :=
  calc W5 m ρ c (Proc.devRef .tc main_arg11)
    _ = W4 m ρ c (Proc.devRef .tc main_arg11) := W5_of_ne m ρ c main_arg11 (by decide)
    _ = W3 m ρ c (Proc.devRef .tc main_arg11) := by keeps
    _ = W2 m ρ c (Proc.devRef .tc main_arg11) := by keeps
    _ = m ((c : Thread nD τ).loc main_arg11) := W2_arg11 m ρ c

/-! ## After the third region -/

theorem W12_v3 : W12 m ρ c (Proc.devRef .tc main_v3) = W1 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := by keeps
    _ = W9 m ρ c (Proc.devRef .tc main_v3) := by keeps
    _ = W8 m ρ c (Proc.devRef .tc main_v3) := by keeps
    _ = W7 m ρ c (Proc.devRef .tc main_v3) := by keeps
    _ = W6 m ρ c (Proc.devRef .tc main_v3) := by keeps
    _ = W5 m ρ c (Proc.devRef .tc main_v3) := by keeps
    _ = W1 m ρ c (Proc.devRef .tc main_v3) := W5_v3 m ρ c
theorem W12_v6 : W12 m ρ c (Proc.devRef .tc main_v6) = W1 m ρ c (Proc.devRef .tc main_v6) :=
  calc W12 m ρ c (Proc.devRef .tc main_v6)
    _ = W11 m ρ c (Proc.devRef .tc main_v6) := W12_of_ne m ρ c main_v6 (by decide)
    _ = W10 m ρ c (Proc.devRef .tc main_v6) := by keeps
    _ = W9 m ρ c (Proc.devRef .tc main_v6) := by keeps
    _ = W8 m ρ c (Proc.devRef .tc main_v6) := by keeps
    _ = W7 m ρ c (Proc.devRef .tc main_v6) := by keeps
    _ = W6 m ρ c (Proc.devRef .tc main_v6) := by keeps
    _ = W5 m ρ c (Proc.devRef .tc main_v6) := by keeps
    _ = W1 m ρ c (Proc.devRef .tc main_v6) := W5_v6 m ρ c
theorem W12_v28 : W12 m ρ c (Proc.devRef .tc main_v28) = W1 m ρ c (Proc.devRef .tc main_v28) :=
  calc W12 m ρ c (Proc.devRef .tc main_v28)
    _ = W11 m ρ c (Proc.devRef .tc main_v28) := W12_of_ne m ρ c main_v28 (by decide)
    _ = W10 m ρ c (Proc.devRef .tc main_v28) := by keeps
    _ = W9 m ρ c (Proc.devRef .tc main_v28) := by keeps
    _ = W8 m ρ c (Proc.devRef .tc main_v28) := by keeps
    _ = W7 m ρ c (Proc.devRef .tc main_v28) := by keeps
    _ = W6 m ρ c (Proc.devRef .tc main_v28) := by keeps
    _ = W5 m ρ c (Proc.devRef .tc main_v28) := by keeps
    _ = W1 m ρ c (Proc.devRef .tc main_v28) := W5_v28 m ρ c

end Cert.KernelIdeal.Gen

end
-- ==== Proof.LibTypedRef.lean ====
/-
  A typed reference's two transports cancel.

  A value of type `T` stored through a typed reference `x : TRef sig T` is carried to the buffer's own type along
  `x.ty_eq` (`toBuf`) and read back along the same equation (`ofBuf`); the two casts compose to the identity, whatever
  the reference. A straight line of operations spelt over typed references (an inlined function's operations) reads
  every intermediate value through such a pair.
-/
import Idealize.ShloMosaic.Lib.StableHlo

namespace Idealize.ShloMosaic.StableHlo.TRef

/-- Reading back what was stored through the same typed reference gives the value. -/
theorem ofBuf_toBuf {sig : RefSig} {T : BufTy} {Val : EltTy → Type} (x : TRef sig T) (v : T.Contents Val) :
    x.ofBuf (x.toBuf v) = v := by
  obtain ⟨r, rfl, _, _⟩ := x
  rfl

/-- Storing what was read through the same typed reference gives the buffer's contents. -/
theorem toBuf_ofBuf {sig : RefSig} {T : BufTy} {Val : EltTy → Type} (x : TRef sig T) (v : x.ref.ty.Contents Val) :
    x.toBuf (x.ofBuf v) = v := by
  obtain ⟨r, rfl, _, _⟩ := x
  rfl

end Idealize.ShloMosaic.StableHlo.TRef
-- ==== Proof.LayerDefs.lean ====
/-
  The last graph-convolution layer, after its dense projection, as one function on each side.

  Both programs take the projected node table `p`, gather its rows at the edges' source nodes (a negative index moved
  up by the number of nodes first), scale row `n` by the edge coefficient `nrm n`, add the rows up at the edges' target
  nodes, and add the bias to every row. The kernel's program does this at width 128 — the projection's weight matrix and
  the bias padded with zero columns from width 40 — and keeps the first 40 columns; the reference does it at width 40.
  `matProd` is the dense projection as a function: entry (r, h) is the sum over l of x (r, l) · w (l, h).
-/
import proofs.«411127_j66872640799057_3_alg».proof.Proof.Gen.KernelIdeal
import proofs.«411127_j66872640799057_3_alg».proof.Proof.Gen.ReferenceIdeal
import Idealize.ShloMosaic.Lib.ValueIdx

noncomputable section

open Idealize.ShloMosaic Idealize.ShloMosaic.ValueIdx

namespace Cert.Bridge

/-- The product of a node table [50000, 128] by a weight matrix [128, 128]: entry (r, h) is Σ l, x (r, l) · w (l, h). -/
def matProd (x : FVec Ideal ⟨2, ![50000, 128]⟩ .f32) (w : FVec Ideal ⟨2, ![128, 128]⟩ .f32) :
    FVec Ideal ⟨2, ![50000, 128]⟩ .f32 :=
  fun i => ∑ l : Fin 128, x (ix2 (⟨(i 0).val, (i 0).isLt⟩ : Fin 50000) l) * w (ix2 l (⟨(i 1).val, (i 1).isLt⟩ : Fin 128))

end Cert.Bridge

namespace Cert.KernelIdeal.Bridge

open Cert.KernelIdeal Cert.KernelIdeal.Gen

/-- The weight matrix [128, 40] padded with 88 zero columns. -/
def padW (w3 : FVec Ideal S128x40 .f32) : FVec Ideal S128x128 .f32 :=
  pad S128x128 ![0, 0] ![0, 88] ![0, 0] w3 (sitofp (F := Ideal) .f32 (constantI S_ 32 0#32)) pads_S128x40_S128x128_000_0880 h_S_

/-- The bias [40] padded with 88 zeros. -/
def padB (b3 : FVec Ideal S40 .f32) : FVec Ideal S128 .f32 :=
  pad S128 ![0] ![88] ![0] b3 (sitofp (F := Ideal) .f32 (constantI S_ 32 0#32)) pads_S40_S128_0880 h_S_

/-- The kernel program's last layer after the projection `p` (width 128), cut to its first 40 columns. -/
def tail128 (p : FVec Ideal S50000x128 .f32) (src dst : IVec S850000 32) (nrm : FVec Ideal S850000 .f32)
    (b : FVec Ideal S128 .f32) : FVec Ideal S50000x40 .f32 :=
  extractStridedSlice S50000x40 ![0, 0]
    (addf
      (Host.scatterAdd scatter_S50000x128_S850000x1_S850000x128_1_0_0_1
        (broadcastInDim S50000x128 ![] bcast_S_S50000x128 (constant (F := Ideal) S_ .f32 0x00000000#32))
        (broadcastInDim S850000x1 ![0] bcast_S850000_S850000x1_0 dst)
        (mulf
          (Host.gather gather_S50000x128_S850000x1_S850000x128_1_0_n_n_0_1_1128 p
            (broadcastInDim S850000x1 ![0] bcast_S850000_S850000x1_0
              (select (cmpi .slt src (broadcastInDim S850000 ![] bcast_S_S850000 (constantI S_ 32 0#32)))
                (addi src (broadcastInDim S850000 ![] bcast_S_S850000 (constantI S_ 32 50000#32))) src)))
          (broadcastInDim S850000x128 ![0, 1] bcast_S850000x1_S850000x128_0_1
            (broadcastInDim S850000x1 ![0] bcast_S850000_S850000x1_0 nrm))))
      (broadcastInDim S50000x128 ![0, 1] bcast_S1x128_S50000x128_0_1 (broadcastInDim S1x128 ![1] bcast_S128_S1x128_1 b)))
    slices_S50000x128_S50000x40_0_0

end Cert.KernelIdeal.Bridge

namespace Cert.ReferenceIdeal.Bridge

open Cert.ReferenceIdeal Cert.ReferenceIdeal.Gen

/-- The reference's last layer after the projection `p` (width 40). -/
def tail40 (p : FVec Ideal S50000x40 .f32) (src dst : IVec S850000 32) (nrm : FVec Ideal S850000 .f32)
    (b : FVec Ideal S40 .f32) : FVec Ideal S50000x40 .f32 :=
  addf
    (Host.scatterAdd scatter_S50000x40_S850000x1_S850000x40_1_0_0_1
      (broadcastInDim S50000x40 ![] bcast_S_S50000x40 (constant (F := Ideal) S_ .f32 0x00000000#32))
      (broadcastInDim S850000x1 ![0] bcast_S850000_S850000x1_0 dst)
      (mulf
        (Host.gather gather_S50000x40_S850000x1_S850000x40_1_0_n_n_0_1_140 p
          (broadcastInDim S850000x1 ![0] bcast_S850000_S850000x1_0
            (select (cmpi .slt src (broadcastInDim S850000 ![] bcast_S_S850000 (constantI S_ 32 0#32)))
              (addi src (broadcastInDim S850000 ![] bcast_S_S850000 (constantI S_ 32 50000#32))) src)))
        (broadcastInDim S850000x40 ![0, 1] bcast_S850000x1_S850000x40_0_1
          (broadcastInDim S850000x1 ![0] bcast_S850000_S850000x1_0 nrm))))
    (broadcastInDim S50000x40 ![0, 1] bcast_S1x40_S50000x40_0_1 (broadcastInDim S1x40 ![1] bcast_S40_S1x40_1 b))

/-- The reference's dense projection to width 40. -/
def proj40 (h : FVec Ideal S50000x128 .f32) (w3 : FVec Ideal S128x40 .f32) : FVec Ideal S50000x40 .f32 :=
  Host.dotGeneral dot_S50000x128_S128x40_S50000x40_1_0_0_1_n_n none h w3

end Cert.ReferenceIdeal.Bridge

end
-- ==== Proof.LibRank3Layout.lean ====
/-
  Rank-3 stacks read at an index: the layout operations, the reductions over the last axis and the plain matrix
  product that a kernel working on a stack [a, b, c] of rows meets, each read at explicit coordinates.

  A matrix [a, b] viewed as [a, b, 1] or as [a, 1, b] keeps its entries; a stack [a, b, c] flattened to [a·b, c] puts row
  (i, j) at flat row i·b + j, and back; a column stack [a, b, 1] or a row stack [a, 1, c] broadcast to [a, b, c] repeats its
  entries along the unit axis. A sum or a maximum over the last axis of a stack, read at (i, j), is the sum or the fold of
  `max` over the entries (i, j, l). The plain product of an m×k by a k×n matrix into a zero accumulator, read at (r, h), is
  the sum over the contracted coordinate of the products of the entries. The reductions and the product are at the ideal values.
-/
import Idealize.ShloMosaic.PureOps.Ideal.Laws
import Idealize.ShloMosaic.Lib.ValueIdx
import Idealize.ShloMosaic.Lib.Pipeline.Value

noncomputable section

namespace Idealize.ShloMosaic.Rank3Layout

open Idealize.ShloMosaic Idealize.ShloMosaic.ValueIdx

variable {α : Type}

/-! ## Unit axes added to a matrix -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## A stack flattened to a matrix, and back -/

/-- An `[a, b, c]` array cast to `[n, c]` reads, at `(r, l)` with `r = i·b + j`, the operand at `(i, j, l)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (l : Fin c) (r : Fin n)
    (hr : r.val = i.val * b + j.val) : shapeCast ⟨2, ![n, c]⟩ x h (ix2 r l) = x (ix3 i j l) :=
  shapeCast_apply x h _ _ (by
    rw [Shape.rowMajor_val_three, Shape.rowMajor_val_two]
    show (i.val * b + j.val) * c + l.val = r.val * c + l.val
    rw [hr])

/-- An `[n, c]` array cast to `[a, b, c]` reads, at `(i, j, l)`, the operand at `(r, l)` with `r = i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (l : Fin c) (r : Fin n)
    (hr : r.val = i.val * b + j.val) : shapeCast ⟨3, ![a, b, c]⟩ x h (ix3 i j l) = x (ix2 r l) :=
  shapeCast_apply x h _ _ (by
    rw [Shape.rowMajor_val_three, Shape.rowMajor_val_two]
    show r.val * c + l.val = (i.val * b + j.val) * c + l.val
    rw [hr])

/-! ## A unit axis broadcast -/

/-- An `[a, b, 1]` array broadcast to `[a, b, c]` reads, at `(i, j, l)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, l)`, the operand at `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

/-! ## Reductions over the last axis, at the ideal values -/

/-- The index over `(i, j)` with `l` put on the dropped last axis is `(i, j, l)`. -/
theorem lift_last {a b c : ℕ} (h : (⟨3, ![a, b, c]⟩ : Shape).Reduces [2] ⟨2, ![a, b]⟩) (i : Fin a) (j : Fin b) (l : Fin c) :
    h.lift (ix2 i j) l = ix3 i j l := by
  funext ax; apply Fin.ext
  match ax with
  | ⟨0, _⟩ => rfl
  | ⟨1, _⟩ => rfl
  | ⟨2, _⟩ => rfl

/-- A sum over the last axis of a stack, read at `(i, j)`, is the sum of the entries `(i, j, l)`. -/
theorem multiReduction_add_last {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ l : Fin c, src (ix3 i j l) := by
  refine (Ideal.multiReduction_add_single src acc h hφ hacc (ix2 i j)).trans ?_
  show ∑ l : Fin c, src (h.lift (ix2 i j) l) = _
  exact Finset.sum_congr rfl fun l _ => congrArg src (lift_last h i j l)

/-- A maximum over the last axis of a stack, read at `(i, j)`, is the fold of `max`, from the accumulator's value, over the
    entries `(i, j, l)`. -/
theorem multiReduction_maximumf_last {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun l => src (ix3 i j l)) := by
  refine (Ideal.multiReduction_maximumf_single src acc h hφ hacc (ix2 i j)).trans ?_
  show (Finset.univ : Finset (Fin c)).fold max (Ideal.ofBits φ acc) (fun l => src (h.lift (ix2 i j) l)) = _
  exact congrArg (fun f : Fin c → EReal => (Finset.univ : Finset (Fin c)).fold max (Ideal.ofBits φ acc) f)
    (funext fun l => congrArg src (lift_last h i j l))

/-! ## The plain matrix product into a zero accumulator, at the ideal values -/

/-- A kernel's product of an m×k by a k×n matrix into the zero accumulator, read at `(r, h)`. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply,
    ← Equiv.sum_comp (contrEquiv1 (⟨[1], [0], [0], [1], [], [], w⟩ : DotDims _ _ _) k rfl rfl).symm]
  refine Finset.sum_congr rfl fun l _ => ?_
  have c2 := contrEquiv1_symm_val
    (⟨[1], [0], [0], [1], [], [], w⟩ : DotDims ⟨2, ![m, k]⟩ ⟨2, ![k, n]⟩ ⟨2, ![m, n]⟩) k rfl rfl l
  have l2 : (⟨[1], [0], [0], [1], [], [], w⟩ : DotDims ⟨2, ![m, k]⟩ ⟨2, ![k, n]⟩ ⟨2, ![m, n]⟩).lhsIdx (ix2 r h)
      ((contrEquiv1 _ k rfl rfl).symm l) = ix2 r l := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r h)
      ((contrEquiv1 _ k rfl rfl).symm l) = ix2 l h := by
    funext ax; apply Fin.ext
    match ax with
    | ⟨0, _⟩ => simp [DotDims.rhsIdx]; exact c2
    | ⟨1, _⟩ => simp [DotDims.rhsIdx]; rfl
  rw [l2, r2]

end Idealize.ShloMosaic.Rank3Layout

end
-- ==== Proof.RegionValue.lean ====
/-
  The three dense projections of the network, each a pipelined kernel call, as one function of the arrays the call finds.

  Each call walks the node table [50000, 128] in 50 row blocks of 1000 rows. At grid point t it holds rows
  1000·t … 1000·t + 999 of the table and the whole weight matrix [128, 128], multiplies the two into a zero accumulator and
  writes the product back as rows 1000·t … 1000·t + 999 of the result. Entry (r, h) of a block's product is the sum over l
  of (block row r, column l) · (weight row l, column h); block row r of point t is table row 1000·t + r, so the block
  written back at point t is that block of the whole product `matProd`. Row R of the result is written by point R / 1000,
  so the 50 blocks cover the result, which therefore ends holding the whole product.
-/
import proofs.«411127_j66872640799057_3_alg».proof.Proof.Gen.KernelIdeal.Frame
import proofs.«411127_j66872640799057_3_alg».proof.Proof.LayerDefs
import proofs.«411127_j66872640799057_3_alg».proof.Proof.LibRank3Layout
import Idealize.ShloMosaic.Lib.Pipeline.Value
import Idealize.ShloMosaic.Lib.ValueIdx

noncomputable section

namespace Cert.KernelIdeal.RegionValue

open Cert.KernelIdeal Cert.KernelIdeal.Gen Cert.Bridge
open Idealize.ShloMosaic Idealize.ShloMosaic.TcCoe Idealize.SL.Sem Idealize.ShloMosaic.ValueIdx
open Idealize.ShloMosaic.Pipeline (Dat)

/-- The zero offsets of a whole-buffer access, as a constant function. -/
theorem zero_offsets : (![0, 0] : Fin 2 → Nat) = fun _ => 0 := funext fun a => by fin_cases a <;> rfl

/-! ## A block's product inside the whole product -/

/-- If `A` holds rows 1000·q … 1000·q + 999 of the table `X` and `B` is the weight matrix `W`, then the sum over l of
    A (r, l) · B (l, h) is entry (1000·q + r, h) of the whole product of `X` by `W`. -/
theorem block_sum_eq (X : FVec Ideal ⟨2, ![50000, 128]⟩ .f32) (W : FVec Ideal ⟨2, ![128, 128]⟩ .f32)
    (A : FVec Ideal ⟨2, ![1000, 128]⟩ .f32) (B : FVec Ideal ⟨2, ![128, 128]⟩ .f32) (q : ℕ)
    (hA : ∀ (r : Fin 1000) (l : Fin 128) (R : Fin 50000), R.val = q * 1000 + r.val → A (ix2 r l) = X (ix2 R l))
    (hB : ∀ l h : Fin 128, B (ix2 l h) = W (ix2 l h))
    (r : Fin 1000) (h : Fin 128) (i : (⟨2, ![50000, 128]⟩ : Shape).Idx)
    (hi0 : (i 0).val = q * 1000 + r.val) (hi1 : (i 1).val = h.val) :
    ∑ l : Fin 128, A (ix2 r l) * B (ix2 l h) = matProd X W i := by
  show _ = ∑ l : Fin 128, X (ix2 (⟨(i 0).val, (i 0).isLt⟩ : Fin 50000) l) * W (ix2 l (⟨(i 1).val, (i 1).isLt⟩ : Fin 128))
  refine Finset.sum_congr rfl fun l _ => ?_
  rw [hA r l ⟨(i 0).val, (i 0).isLt⟩ hi0, hB l h]
  have hh : h = (⟨(i 1).val, (i 1).isLt⟩ : Fin 128) := Fin.ext hi1.symm
  rw [← hh]

/-! ## Region 0 -/

section Region0

variable (V : (c : Dev nD) → (b : Ref sig .tc) → Buf (Elt Ideal) ((c : Thread nD τ).loc b))

/-- The body's payload read at (r, h): the sum over l of A (r, l) · B (l, h). -/
theorem pay0_apply (A : Vec Ideal S1000x128 .f32) (B : Vec Ideal S128x128 .f32) (r : Fin 1000) (h : Fin 128) :
    k0_pay1 (F := Ideal) A B (ix2 r h) = ∑ l : Fin 128, A (ix2 r l) * B (ix2 l h) := by
  unfold k0_pay1
  exact Idealize.ShloMosaic.Rank3Layout.matmul_plain_apply dot_S1000x128_S128x128_S1000x128_1_0_0_1_n_n_wf (some .fp32) A B r h

/-- The index maps over the grid: the table's and the result's block index is (t, 0), the weight matrix's is (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The table's block at point t holds rows 1000·t … 1000·t + 999 of the table. -/
theorem tblock0_apply (c : Dev nD) (t : Fin cfg0.N) (r : Fin 1000) (l : Fin 128) (R : Fin 50000)
    (hR : R.val = t.val * 1000 + r.val) :
    (iblk0 (F := Ideal) V c 0 t : Vec Ideal S1000x128 .f32) (ix2 r l)
      = (V c (Pipeline.arrRef spec0 0) : FVec Ideal S50000x128 .f32) (ix2 R l) := by
  obtain ⟨e0, e1, -, -, -, -⟩ := idx0 t
  unfold iblk0
  rw [View.read_apply]
  show V c (Pipeline.arrRef spec0 0) _ = V c (Pipeline.arrRef spec0 0) _
  congr 1
  funext a; apply Fin.ext
  match a with
  | ⟨0, _⟩ => show win0_0.index t (0 : Fin 2) * 1000 + 1 * r.val = R.val; omega
  | ⟨1, _⟩ => show win0_0.index t (1 : Fin 2) * 128 + 1 * l.val = l.val; omega

/-- The weight matrix's block at any point is the whole weight matrix. -/
theorem wblock0_apply (c : Dev nD) (t : Fin cfg0.N) (l h : Fin 128) :
    (iblk0 (F := Ideal) V c 1 t : Vec Ideal S128x128 .f32) (ix2 l h)
      = (V c (Pipeline.arrRef spec0 1) : FVec Ideal S128x128 .f32) (ix2 l h) := by
  obtain ⟨-, -, e2, e3, -, -⟩ := idx0 t
  unfold iblk0
  rw [View.read_apply]
  show V c (Pipeline.arrRef spec0 1) _ = V c (Pipeline.arrRef spec0 1) _
  congr 1
  funext a; apply Fin.ext
  match a with
  | ⟨0, _⟩ => show win0_1.index t (0 : Fin 2) * 128 + 1 * l.val = l.val; omega
  | ⟨1, _⟩ => show win0_1.index t (1 : Fin 2) * 128 + 1 * h.val = h.val; omega

/-- What point t writes back is block t of the whole product. -/
theorem flushed0_eq (c : Dev nD) (t : Fin cfg0.N) :
    (dat0 (F := Ideal) V c).flushed 2 t
      = ((cfg0.win 2).blk t).view.read (Elt Ideal) (matProd (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero zero_offsets]
  simp only [View.ld_unit_zero (S := S1000x128) zero_offsets, View.ld_unit_zero (S := S128x128) zero_offsets]
  obtain ⟨-, -, -, -, e4, e5⟩ := idx0 t
  funext j
  obtain ⟨r, h, rfl⟩ : ∃ (r : Fin 1000) (h : Fin 128), j = ix2 r h := ⟨j 0, j 1, eq_ix2 j⟩
  show k0_pay1 (F := Ideal) (iblk0 V c 0 t) (iblk0 V c 1 t) (ix2 r h)
    = matProd (V c (Pipeline.arrRef spec0 0)) (V c (Pipeline.arrRef spec0 1)) (((cfg0.win 2).blk t).view.emb (ix2 r h))
  refine (pay0_apply (iblk0 V c 0 t) (iblk0 V c 1 t) r h).trans ?_
  refine block_sum_eq _ _ _ _ t.val (tblock0_apply V c t) (wblock0_apply V c t) r h _ ?_ ?_
  · show win0_2.index t (0 : Fin 2) * 1000 + 1 * r.val = t.val * 1000 + r.val; omega
  · show win0_2.index t (1 : Fin 2) * 128 + 1 * h.val = h.val; omega

/-- A row of the result lies in point t's block iff each coordinate lies in the block's range on its axis. -/
theorem mem_blk0 (t : Fin cfg0.N) (i : S50000x128.Idx) :
    i ∈ ((cfg0.win 2).blk t).view.set ↔ ∀ a : Fin 2, win0_2.index t a * S1000x128.size a ≤ (i a).val
      ∧ (i a).val < win0_2.index t a * S1000x128.size a + S1000x128.size a := by
  show i ∈ ((View.whole main_v29).slice (win0_2.rect t)).set ↔ _
  rw [View.set_slice_whole, Rect.mem_set_unit]
  exact Iff.rfl

/-- Row R of the result is written by point R / 1000. -/
theorem cover0 (i : S50000x128.Idx) :
    ∃ t : Fin cfg0.N, (cfg0.win 2).flush t = true ∧ i ∈ ((cfg0.win 2).blk t).view.set := by
  have hN : cfg0.N = 50 := N_0
  have hi0 : (i 0).val < 50000 := (i 0).isLt
  have hi1 : (i 1).val < 128 := (i 1).isLt
  let t : Fin cfg0.N := ⟨(i 0).val / 1000, by rw [hN]; omega⟩
  have ht : t.val = (i 0).val / 1000 := rfl
  obtain ⟨-, -, -, -, e4, e5⟩ := idx0 t
  refine ⟨t, flush0_2 t, ?_⟩
  rw [mem_blk0]
  intro a
  match a with
  | ⟨0, _⟩ =>
    show win0_2.index t (0 : Fin 2) * 1000 ≤ (i 0).val ∧ (i 0).val < win0_2.index t (0 : Fin 2) * 1000 + 1000
    omega
  | ⟨1, _⟩ =>
    show win0_2.index t (1 : Fin 2) * 128 ≤ (i 1).val ∧ (i 1).val < win0_2.index t (1 : Fin 2) * 128 + 128
    omega

/-- After the call the result array holds the whole product of the table by the weight matrix, as the call found them. -/
theorem arrAt0 (c : Dev nD) :
    (dat0 (F := Ideal) V c).arrAt 2 cfg0.N
      = matProd (V c (Pipeline.arrRef spec0 0)) (V c (Pipeline.arrRef spec0 1)) :=
  (dat0 (F := Ideal) V c).arrAt_eq_of_cover 2 _ (fun t _ => flushed0_eq V c t) cover0

end Region0

/-! ## Region 1 -/

section Region1

variable (V : (c : Dev nD) → (b : Ref sig .tc) → Buf (Elt Ideal) ((c : Thread nD τ).loc b))

/-- The body's payload read at (r, h): the table's block is first cast to its own shape, which changes nothing, so the
    payload is again the sum over l of A (r, l) · B (l, h). -/
theorem pay1_apply (A : Vec Ideal S1000x128 .f32) (B : Vec Ideal S128x128 .f32) (r : Fin 1000) (h : Fin 128) :
    k1_pay1 (F := Ideal) A B (ix2 r h) = ∑ l : Fin 128, A (ix2 r l) * B (ix2 l h) := by
  unfold k1_pay1
  simp only [shapeCast_self]
  exact Idealize.ShloMosaic.Rank3Layout.matmul_plain_apply dot_S1000x128_S128x128_S1000x128_1_0_0_1_n_n_wf (some .fp32) A B r h

/-- The index maps over the grid: the table's and the result's block index is (t, 0), the weight matrix's is (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The table's block at point t holds rows 1000·t … 1000·t + 999 of the table. -/
theorem tblock1_apply (c : Dev nD) (t : Fin cfg1.N) (r : Fin 1000) (l : Fin 128) (R : Fin 50000)
    (hR : R.val = t.val * 1000 + r.val) :
    (iblk1 (F := Ideal) V c 0 t : Vec Ideal S1000x128 .f32) (ix2 r l)
      = (V c (Pipeline.arrRef spec1 0) : FVec Ideal S50000x128 .f32) (ix2 R l) := by
  obtain ⟨e0, e1, -, -, -, -⟩ := idx1 t
  unfold iblk1
  rw [View.read_apply]
  show V c (Pipeline.arrRef spec1 0) _ = V c (Pipeline.arrRef spec1 0) _
  congr 1
  funext a; apply Fin.ext
  match a with
  | ⟨0, _⟩ => show win1_0.index t (0 : Fin 2) * 1000 + 1 * r.val = R.val; omega
  | ⟨1, _⟩ => show win1_0.index t (1 : Fin 2) * 128 + 1 * l.val = l.val; omega

/-- The weight matrix's block at any point is the whole weight matrix. -/
theorem wblock1_apply (c : Dev nD) (t : Fin cfg1.N) (l h : Fin 128) :
    (iblk1 (F := Ideal) V c 1 t : Vec Ideal S128x128 .f32) (ix2 l h)
      = (V c (Pipeline.arrRef spec1 1) : FVec Ideal S128x128 .f32) (ix2 l h) := by
  obtain ⟨-, -, e2, e3, -, -⟩ := idx1 t
  unfold iblk1
  rw [View.read_apply]
  show V c (Pipeline.arrRef spec1 1) _ = V c (Pipeline.arrRef spec1 1) _
  congr 1
  funext a; apply Fin.ext
  match a with
  | ⟨0, _⟩ => show win1_1.index t (0 : Fin 2) * 128 + 1 * l.val = l.val; omega
  | ⟨1, _⟩ => show win1_1.index t (1 : Fin 2) * 128 + 1 * h.val = h.val; omega

/-- What point t writes back is block t of the whole product. -/
theorem flushed1_eq (c : Dev nD) (t : Fin cfg1.N) :
    (dat1 (F := Ideal) V c).flushed 2 t
      = ((cfg1.win 2).blk t).view.read (Elt Ideal) (matProd (V c (Pipeline.arrRef spec1 0)) (V c (Pipeline.arrRef spec1 1))) := by
  show (cfg1.win 2).cut (grid1.coords t) ((dat1 (F := Ideal) V c).after 2 t) = _
  rw [after1_2]
  unfold out1_2
  rw [View.canon_unit_zero zero_offsets]
  simp only [View.ld_unit_zero (S := S1000x128) zero_offsets, View.ld_unit_zero (S := S128x128) zero_offsets]
  obtain ⟨-, -, -, -, e4, e5⟩ := idx1 t
  funext j
  obtain ⟨r, h, rfl⟩ : ∃ (r : Fin 1000) (h : Fin 128), j = ix2 r h := ⟨j 0, j 1, eq_ix2 j⟩
  show k1_pay1 (F := Ideal) (iblk1 V c 0 t) (iblk1 V c 1 t) (ix2 r h)
    = matProd (V c (Pipeline.arrRef spec1 0)) (V c (Pipeline.arrRef spec1 1)) (((cfg1.win 2).blk t).view.emb (ix2 r h))
  refine (pay1_apply (iblk1 V c 0 t) (iblk1 V c 1 t) r h).trans ?_
  refine block_sum_eq _ _ _ _ t.val (tblock1_apply V c t) (wblock1_apply V c t) r h _ ?_ ?_
  · show win1_2.index t (0 : Fin 2) * 1000 + 1 * r.val = t.val * 1000 + r.val; omega
  · show win1_2.index t (1 : Fin 2) * 128 + 1 * h.val = h.val; omega

/-- A row of the result lies in point t's block iff each coordinate lies in the block's range on its axis. -/
theorem mem_blk1 (t : Fin cfg1.N) (i : S50000x128.Idx) :
    i ∈ ((cfg1.win 2).blk t).view.set ↔ ∀ a : Fin 2, win1_2.index t a * S1000x128.size a ≤ (i a).val
      ∧ (i a).val < win1_2.index t a * S1000x128.size a + S1000x128.size a := by
  show i ∈ ((View.whole main_v72).slice (win1_2.rect t)).set ↔ _
  rw [View.set_slice_whole, Rect.mem_set_unit]
  exact Iff.rfl

/-- Row R of the result is written by point R / 1000. -/
theorem cover1 (i : S50000x128.Idx) :
    ∃ t : Fin cfg1.N, (cfg1.win 2).flush t = true ∧ i ∈ ((cfg1.win 2).blk t).view.set := by
  have hN : cfg1.N = 50 := N_1
  have hi0 : (i 0).val < 50000 := (i 0).isLt
  have hi1 : (i 1).val < 128 := (i 1).isLt
  let t : Fin cfg1.N := ⟨(i 0).val / 1000, by rw [hN]; omega⟩
  have ht : t.val = (i 0).val / 1000 := rfl
  obtain ⟨-, -, -, -, e4, e5⟩ := idx1 t
  refine ⟨t, flush1_2 t, ?_⟩
  rw [mem_blk1]
  intro a
  match a with
  | ⟨0, _⟩ =>
    show win1_2.index t (0 : Fin 2) * 1000 ≤ (i 0).val ∧ (i 0).val < win1_2.index t (0 : Fin 2) * 1000 + 1000
    omega
  | ⟨1, _⟩ =>
    show win1_2.index t (1 : Fin 2) * 128 ≤ (i 1).val ∧ (i 1).val < win1_2.index t (1 : Fin 2) * 128 + 128
    omega

/-- After the call the result array holds the whole product of the table by the weight matrix, as the call found them. -/
theorem arrAt1 (c : Dev nD) :
    (dat1 (F := Ideal) V c).arrAt 2 cfg1.N
      = matProd (V c (Pipeline.arrRef spec1 0)) (V c (Pipeline.arrRef spec1 1)) :=
  (dat1 (F := Ideal) V c).arrAt_eq_of_cover 2 _ (fun t _ => flushed1_eq V c t) cover1

end Region1

/-! ## Region 2 -/

section Region2

variable (V : (c : Dev nD) → (b : Ref sig .tc) → Buf (Elt Ideal) ((c : Thread nD τ).loc b))

/-- The body's payload read at (r, h): both blocks are first cast to their own shapes, which changes nothing, so the
    payload is again the sum over l of A (r, l) · B (l, h). -/
theorem pay2_apply (A : Vec Ideal S1000x128 .f32) (B : Vec Ideal S128x128 .f32) (r : Fin 1000) (h : Fin 128) :
    k2_pay1 (F := Ideal) A B (ix2 r h) = ∑ l : Fin 128, A (ix2 r l) * B (ix2 l h) := by
  unfold k2_pay1
  simp only [shapeCast_self]
  exact Idealize.ShloMosaic.Rank3Layout.matmul_plain_apply dot_S1000x128_S128x128_S1000x128_1_0_0_1_n_n_wf (some .fp32) A B r h

/-- The index maps over the grid: the table's and the result's block index is (t, 0), the weight matrix's is (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The table's block at point t holds rows 1000·t … 1000·t + 999 of the table. -/
theorem tblock2_apply (c : Dev nD) (t : Fin cfg2.N) (r : Fin 1000) (l : Fin 128) (R : Fin 50000)
    (hR : R.val = t.val * 1000 + r.val) :
    (iblk2 (F := Ideal) V c 0 t : Vec Ideal S1000x128 .f32) (ix2 r l)
      = (V c (Pipeline.arrRef spec2 0) : FVec Ideal S50000x128 .f32) (ix2 R l) := by
  obtain ⟨e0, e1, -, -, -, -⟩ := idx2 t
  unfold iblk2
  rw [View.read_apply]
  show V c (Pipeline.arrRef spec2 0) _ = V c (Pipeline.arrRef spec2 0) _
  congr 1
  funext a; apply Fin.ext
  match a with
  | ⟨0, _⟩ => show win2_0.index t (0 : Fin 2) * 1000 + 1 * r.val = R.val; omega
  | ⟨1, _⟩ => show win2_0.index t (1 : Fin 2) * 128 + 1 * l.val = l.val; omega

/-- The weight matrix's block at any point is the whole weight matrix. -/
theorem wblock2_apply (c : Dev nD) (t : Fin cfg2.N) (l h : Fin 128) :
    (iblk2 (F := Ideal) V c 1 t : Vec Ideal S128x128 .f32) (ix2 l h)
      = (V c (Pipeline.arrRef spec2 1) : FVec Ideal S128x128 .f32) (ix2 l h) := by
  obtain ⟨-, -, e2, e3, -, -⟩ := idx2 t
  unfold iblk2
  rw [View.read_apply]
  show V c (Pipeline.arrRef spec2 1) _ = V c (Pipeline.arrRef spec2 1) _
  congr 1
  funext a; apply Fin.ext
  match a with
  | ⟨0, _⟩ => show win2_1.index t (0 : Fin 2) * 128 + 1 * l.val = l.val; omega
  | ⟨1, _⟩ => show win2_1.index t (1 : Fin 2) * 128 + 1 * h.val = h.val; omega

/-- What point t writes back is block t of the whole product. -/
theorem flushed2_eq (c : Dev nD) (t : Fin cfg2.N) :
    (dat2 (F := Ideal) V c).flushed 2 t
      = ((cfg2.win 2).blk t).view.read (Elt Ideal) (matProd (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero zero_offsets]
  simp only [View.ld_unit_zero (S := S1000x128) zero_offsets, View.ld_unit_zero (S := S128x128) zero_offsets]
  obtain ⟨-, -, -, -, e4, e5⟩ := idx2 t
  funext j
  obtain ⟨r, h, rfl⟩ : ∃ (r : Fin 1000) (h : Fin 128), j = ix2 r h := ⟨j 0, j 1, eq_ix2 j⟩
  show k2_pay1 (F := Ideal) (iblk2 V c 0 t) (iblk2 V c 1 t) (ix2 r h)
    = matProd (V c (Pipeline.arrRef spec2 0)) (V c (Pipeline.arrRef spec2 1)) (((cfg2.win 2).blk t).view.emb (ix2 r h))
  refine (pay2_apply (iblk2 V c 0 t) (iblk2 V c 1 t) r h).trans ?_
  refine block_sum_eq _ _ _ _ t.val (tblock2_apply V c t) (wblock2_apply V c t) r h _ ?_ ?_
  · show win2_2.index t (0 : Fin 2) * 1000 + 1 * r.val = t.val * 1000 + r.val; omega
  · show win2_2.index t (1 : Fin 2) * 128 + 1 * h.val = h.val; omega

/-- A row of the result lies in point t's block iff each coordinate lies in the block's range on its axis. -/
theorem mem_blk2 (t : Fin cfg2.N) (i : S50000x128.Idx) :
    i ∈ ((cfg2.win 2).blk t).view.set ↔ ∀ a : Fin 2, win2_2.index t a * S1000x128.size a ≤ (i a).val
      ∧ (i a).val < win2_2.index t a * S1000x128.size a + S1000x128.size a := by
  show i ∈ ((View.whole main_v117).slice (win2_2.rect t)).set ↔ _
  rw [View.set_slice_whole, Rect.mem_set_unit]
  exact Iff.rfl

/-- Row R of the result is written by point R / 1000. -/
theorem cover2 (i : S50000x128.Idx) :
    ∃ t : Fin cfg2.N, (cfg2.win 2).flush t = true ∧ i ∈ ((cfg2.win 2).blk t).view.set := by
  have hN : cfg2.N = 50 := N_2
  have hi0 : (i 0).val < 50000 := (i 0).isLt
  have hi1 : (i 1).val < 128 := (i 1).isLt
  let t : Fin cfg2.N := ⟨(i 0).val / 1000, by rw [hN]; omega⟩
  have ht : t.val = (i 0).val / 1000 := rfl
  obtain ⟨-, -, -, -, e4, e5⟩ := idx2 t
  refine ⟨t, flush2_2 t, ?_⟩
  rw [mem_blk2]
  intro a
  match a with
  | ⟨0, _⟩ =>
    show win2_2.index t (0 : Fin 2) * 1000 ≤ (i 0).val ∧ (i 0).val < win2_2.index t (0 : Fin 2) * 1000 + 1000
    omega
  | ⟨1, _⟩ =>
    show win2_2.index t (1 : Fin 2) * 128 ≤ (i 1).val ∧ (i 1).val < win2_2.index t (1 : Fin 2) * 128 + 128
    omega

/-- After the call the result array holds the whole product of the table by the weight matrix, as the call found them. -/
theorem arrAt2 (c : Dev nD) :
    (dat2 (F := Ideal) V c).arrAt 2 cfg2.N
      = matProd (V c (Pipeline.arrRef spec2 0)) (V c (Pipeline.arrRef spec2 1)) :=
  (dat2 (F := Ideal) V c).arrAt_eq_of_cover 2 _ (fun t _ => flushed2_eq V c t) cover2

end Region2

end Cert.KernelIdeal.RegionValue

end
-- ==== Proof.LibGatherRows.lean ====
/-
  A gather of whole rows of a table, read at an index.

  A table `T : [N, C]` gathered at a column `idx : [R, 1]` of start indices with offset_dims = [1],
  collapsed_slice_dims = [0], start_index_map = [0], index_vector_dim = 1 and slice sizes [1, C] has the result `[R, C]`
  whose row `e` is a row of the table. Read at `(e, j)` it is the table at `(r, j)`, where `r` is the start index
  `idx[e, 0]` read as a signed integer and clamped into `[0, N − 1]`: the one start-indexed axis is collapsed, so its
  slice has extent one and the clamp's upper end is `N − 1`; the column axis is the one offset axis, not start-indexed, so
  its slice starts at column 0 and the result's column coordinate is the table's.

  Stated for any dimension-numbers record with those field values (`gather_rows`), and for the record built from the
  extents and the well-formedness witness alone (`rowDims`, `gather_rowDims_apply`).
-/
import Idealize.ShloMosaic.PureOps.ShapeOps
import Idealize.ShloMosaic.Lib.ValueIdx

namespace Idealize.ShloMosaic.GatherRows

open Idealize.ShloMosaic Idealize.ShloMosaic.ValueIdx

/-- A list that is one entry long has that entry at every position it has. -/
theorem getElem_of_eq_singleton {β : Type} (l : List β) (b : β) (n : Nat) (h : n < l.length) (hl : l = [b]) : l[n] = b := by
  subst hl
  have : n = 0 := by simpa using h
  subst this; rfl

/-- THE ROW GATHER READ AT `(e, j)`. For dimension numbers over a table `[N, C]`, start indices `[R, 1]` and result
    `[R, C]` with offset axis 1, collapsed axis 0, no batching axes, start index map `[0]` and the index vector on axis 1
    (`hoff` … `hivd`: the record's field values; its conditions give the slice sizes `[1, C]`): the table at row
    `idx[e, 0]`, read signed and clamped into `[0, N − 1]`, column `j`. -/
theorem gather_rows {α : Type} {N R C w : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (T : (⟨2, ![N, C]⟩ : Shape).Idx → α) (idx : IVec ⟨2, ![R, 1]⟩ w) (e : Fin R) (j : Fin C) (hN : 0 < N) :
    Host.gather d T idx (ix2 e j) = T (ix2 ⟨min (idx (ix2 e 0)).toInt.toNat (N - 1), by omega⟩ j) := by
  unfold Host.gather
  congr 1
  funext a
  apply Fin.ext
  have hb : ∀ a, a ∉ d.operandBatchingDims := fun a => by rw [hob]; exact List.not_mem_nil
  match a with
  | ⟨0, _⟩ =>
    -- the row axis: start-indexed and collapsed, so the coordinate is the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e j) idx 0 + d.batchCoord (ix2 e j) 0 + d.offCoord (ix2 e j) 0 = _
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 e 0)).toInt.toNat (N - 1)
    rw [hsl]
    congr 3
    congr 1
    -- the start-indices index of result index (e, j), component 0, is (e, 0)
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = _
        rw [hoff]; rfl
      rw [getElem_of_eq_singleton d.batchDims 0 _ _ hbd]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: the one offset axis, not start-indexed, so the coordinate is the result's column
    have hk : (1 : Fin 2) ∈ d.sKept := by rw [GatherDims.mem_sKept, hcoll]; exact ⟨by simp, hb 1⟩
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1)]
    unfold GatherDims.start GatherDims.offCoord
    rw [dif_neg hm, dif_pos hk]
    simp only [Nat.add_zero, Nat.zero_add]
    rw [getElem_of_eq_singleton d.offsetDims 1 _ _ hoff]
    rfl

/-- Those dimension numbers for a table `[N, C]`, start indices `[R, 1]` and result `[R, C]`; their conditions `wf` are
    decided on literal extents. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather by `rowDims` read at `(e, j)`. -/
theorem gather_rowDims_apply {α : Type} {N R C w : Nat} (hN : 0 < N)
    (wf : GatherDims.WF ⟨2, ![N, C]⟩ ⟨2, ![R, 1]⟩ ⟨2, ![R, C]⟩ [1] [0] [] [0] [] 1 ![1, C])
    (T : (⟨2, ![N, C]⟩ : Shape).Idx → α) (idx : IVec ⟨2, ![R, 1]⟩ w) (e : Fin R) (j : Fin C) :
    Host.gather (rowDims N R C wf) T idx (ix2 e j) = T (ix2 ⟨min (idx (ix2 e 0)).toInt.toNat (N - 1), by omega⟩ j) :=
  gather_rows (rowDims N R C wf) rfl rfl rfl rfl rfl T idx e j hN

end Idealize.ShloMosaic.GatherRows
-- ==== Proof.LibScatterAddRows.lean ====
/-
  A row-wise accumulating scatter read at an entry, at the ideal values.

  The host's accumulating scatter of an [N, D] array of update rows into a [C, D] operand by an [N, 1] column of row
  indices (the update's second axis the window, the operand's first axis inserted and scattered to, the index vector
  on the indices' second axis) sends update row n whole to operand row idx(n), the index word read as a signed integer and
  not clamped; a row whose index is below 0 or not below C is dropped. So entry (k, e) of the result is the operand's
  entry plus the sum over the rows n of: update entry (n, e) when idx(n) is k, zero otherwise. The scatter of an [N]
  vector of updates into a [C] operand by the same column of indices reads the same way at entry k.

  The road: an update index lands at a given operand index exactly when, on every operand axis, the window's start plus
  the window coordinate is that index's coordinate (`resultIdx?_eq_some_iff`, for any dimension numbers). For these
  dimension numbers the start is the index word on the scattered axis and zero on the window axis, and the window
  coordinate is zero on the inserted axis and the update's column on the window axis; so update (n, e') lands at (k, e)
  exactly when idx(n) reads k and e' is e. The filtered sum over the update indices is then the double sum over rows and
  columns of an `if`, and the inner sum over the columns has one term.
-/
import Idealize.ShloMosaic.PureOps.Ideal.Laws
import Idealize.ShloMosaic.Lib.ValueIdx

noncomputable section

open scoped BigOperators

namespace Idealize.ShloMosaic.ScatterAddRows

open Idealize.ShloMosaic Idealize.ShloMosaic.ValueIdx

/-- An update index lands at i exactly when, on every operand axis, the window's start plus the window coordinate is
    i's coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hc
      have h' := Option.some.inj h
      intro a
      have h1 := congrArg (fun f => (f a).val) h'
      simp only at h1
      have h2 := hc a
      omega
    · exact absurd h (by simp)
  · intro h
    have hc : ∀ a, 0 ≤ d.start j idx a + d.window j a ∧ d.start j idx a + d.window j a < s.size a := by
      intro a
      have h1 := h a
      have h2 := (i a).isLt
      omega
    rw [dif_pos hc]
    congr 1
    funext a
    apply Fin.ext
    have h1 := h a
    simp only
    omega

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Rows
variable {C D N : ℕ} (wf : ScatterDims.WF ⟨2, ![C, D]⟩ ⟨2, ![N, 1]⟩ ⟨2, ![N, D]⟩ [1] [0] [0] 1)

/-- The index word an update row reads: the column of indices at (row, 0). -/
private theorem rows_siIdx (j : (⟨2, ![N, D]⟩ : Shape).Idx) (c) :
    (⟨[1], [0], [0], 1, wf⟩ : ScatterDims ⟨2, ![C, D]⟩ ⟨2, ![N, 1]⟩ ⟨2, ![N, D]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the scattered axis the window starts at the row's index word, read signed. -/
private theorem rows_start0 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 0
      = (idx (ix2 (j 0) (0 : Fin 1))).toInt := by
  unfold ScatterDims.start
  rw [dif_pos (List.mem_cons_self ..), rows_siIdx]
  rfl

/-- On the window axis the window starts at zero. -/
private theorem rows_start1 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 1 = 0 := by
  unfold ScatterDims.start
  rw [dif_neg (by simp)]

/-- The inserted axis has window coordinate zero. -/
private theorem rows_window0 (j : (⟨2, ![N, D]⟩ : Shape).Idx) :
    (⟨[1], [0], [0], 1, wf⟩ : ScatterDims ⟨2, ![C, D]⟩ ⟨2, ![N, 1]⟩ ⟨2, ![N, D]⟩).window j 0 = 0 := by
  rfl

/-- The window axis has the update's column as window coordinate. -/
private theorem rows_window1 (j : (⟨2, ![N, D]⟩ : Shape).Idx) :
    (⟨[1], [0], [0], 1, wf⟩ : ScatterDims ⟨2, ![C, D]⟩ ⟨2, ![N, 1]⟩ ⟨2, ![N, D]⟩).window j 1 = (j 1).val := by
  rfl

/-- Update index j lands at (k, e) exactly when its row's index word reads k and its column is e. -/
theorem rows_resultIdx?_iff {w : ℕ} (j : (⟨2, ![N, D]⟩ : Shape).Idx) (idx : IVec ⟨2, ![N, 1]⟩ w) (k : Fin C) (e : Fin D) :
    (⟨[1], [0], [0], 1, wf⟩ : ScatterDims ⟨2, ![C, D]⟩ ⟨2, ![N, 1]⟩ ⟨2, ![N, D]⟩).resultIdx? j idx = some (ix2 k e)
      ↔ (idx (ix2 (j 0) (0 : Fin 1))).toInt = (k.val : ℤ) ∧ j 1 = e := by
  rw [resultIdx?_eq_some_iff, Fin.forall_fin_two, rows_start0, rows_start1, rows_window0, rows_window1]
  constructor
  · rintro ⟨h0, h1⟩
    refine ⟨?_, Fin.ext ?_⟩
    · simpa using h0
    · have : ((j 1).val : ℤ) = (e.val : ℤ) := by simpa using h1
      exact_mod_cast this
  · rintro ⟨h0, h1⟩
    refine ⟨?_, ?_⟩
    · simpa using h0
    · subst h1; simp

end Rows

section Vec
variable {C N : ℕ} (wf : ScatterDims.WF ⟨1, ![C]⟩ ⟨2, ![N, 1]⟩ ⟨1, ![N]⟩ [] [0] [0] 1)

/-- The index word an update reads: the column of indices at (its position, 0). -/
private theorem vec_siIdx (j : (⟨1, ![N]⟩ : Shape).Idx) (c) :
    (⟨[], [0], [0], 1, wf⟩ : ScatterDims ⟨1, ![C]⟩ ⟨2, ![N, 1]⟩ ⟨1, ![N]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the operand's one axis the window starts at the update's index word, read signed. -/
private theorem vec_start0 {w : ℕ} (j : (⟨1, ![N]⟩ : Shape).Idx) (idx : IVec ⟨2, ![N, 1]⟩ w) :
    (⟨[], [0], [0], 1, wf⟩ : ScatterDims ⟨1, ![C]⟩ ⟨2, ![N, 1]⟩ ⟨1, ![N]⟩).start j idx 0
      = (idx (ix2 (j 0) (0 : Fin 1))).toInt := by
  unfold ScatterDims.start
  rw [dif_pos (List.mem_cons_self ..), vec_siIdx]
  rfl

/-- The operand's one axis is inserted: its window coordinate is zero. -/
private theorem vec_window0 (j : (⟨1, ![N]⟩ : Shape).Idx) :
    (⟨[], [0], [0], 1, wf⟩ : ScatterDims ⟨1, ![C]⟩ ⟨2, ![N, 1]⟩ ⟨1, ![N]⟩).window j 0 = 0 := by
  rfl

/-- Update index j lands at k exactly when its index word reads k. -/
theorem vec_resultIdx?_iff {w : ℕ} (j : (⟨1, ![N]⟩ : Shape).Idx) (idx : IVec ⟨2, ![N, 1]⟩ w) (k : Fin C) :
    (⟨[], [0], [0], 1, wf⟩ : ScatterDims ⟨1, ![C]⟩ ⟨2, ![N, 1]⟩ ⟨1, ![N]⟩).resultIdx? j idx = some (ix1 k)
      ↔ (idx (ix2 (j 0) (0 : Fin 1))).toInt = (k.val : ℤ) := by
  rw [resultIdx?_eq_some_iff, Fin.forall_fin_one, vec_start0, vec_window0]
  constructor
  · intro h0
    simpa using h0
  · intro h0
    simpa using h0

end Vec

/-- Rows of width D accumulated into a [C, D] operand by an [N, 1] column of row indices, read at (k, e). -/
theorem scatterAdd_rows_apply {C D N w : ℕ}
    (wf : ScatterDims.WF ⟨2, ![C, D]⟩ ⟨2, ![N, 1]⟩ ⟨2, ![N, D]⟩ [1] [0] [0] 1)
    (x : (⟨2, ![C, D]⟩ : Shape).Idx → EReal) (idx : IVec ⟨2, ![N, 1]⟩ w) (upd : (⟨2, ![N, D]⟩ : Shape).Idx → EReal)
    (k : Fin C) (e : Fin D) :
    Ideal.hostScatterAdd (⟨[1], [0], [0], 1, wf⟩ : ScatterDims ⟨2, ![C, D]⟩ ⟨2, ![N, 1]⟩ ⟨2, ![N, D]⟩) x idx upd (ix2 k e)
      = x (ix2 k e) + ∑ n : Fin N, if (idx (ix2 n (0 : Fin 1))).toInt = (k.val : ℤ) then upd (ix2 n e) else 0 := by
  unfold Ideal.hostScatterAdd
  congr 1
  rw [Finset.sum_filter, sum_idx2]
  refine Finset.sum_congr rfl fun n _ => ?_
  have hiff : ∀ b : Fin D,
      ((⟨[1], [0], [0], 1, wf⟩ : ScatterDims ⟨2, ![C, D]⟩ ⟨2, ![N, 1]⟩ ⟨2, ![N, D]⟩).resultIdx? (ix2 n b) idx = some (ix2 k e))
        ↔ ((idx (ix2 n (0 : Fin 1))).toInt = (k.val : ℤ) ∧ b = e) := fun b => rows_resultIdx?_iff wf (ix2 n b) idx k e
  simp only [hiff]
  by_cases hc : (idx (ix2 n (0 : Fin 1))).toInt = (k.val : ℤ)
  · simp [hc]
  · simp [hc]

/-- Scalars accumulated into a [C] operand by an [N, 1] column of indices, read at k. -/
theorem scatterAdd_vec_apply {C N w : ℕ}
    (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w) (upd : (⟨1, ![N]⟩ : Shape).Idx → EReal)
    (k : Fin C) :
    Ideal.hostScatterAdd (⟨[], [0], [0], 1, wf⟩ : ScatterDims ⟨1, ![C]⟩ ⟨2, ![N, 1]⟩ ⟨1, ![N]⟩) x idx upd (ix1 k)
      = x (ix1 k) + ∑ n : Fin N, if (idx (ix2 n (0 : Fin 1))).toInt = (k.val : ℤ) then upd (ix1 n) else 0 := by
  unfold Ideal.hostScatterAdd
  congr 1
  rw [Finset.sum_filter, sum_idx1]
  refine Finset.sum_congr rfl fun n _ => ?_
  exact if_congr (vec_resultIdx?_iff wf (ix1 n) idx k) rfl rfl

end Idealize.ShloMosaic.ScatterAddRows

end
-- ==== Proof.LastLayer.lean ====
/-
  The last layer at width 128, cut to its first 40 columns, is the last layer at width 40.

  At an entry (k, e) with e < 40 both sides are

      z + Σ over the edges n of (if dst n, read signed, is k then table (clamp (src' n), e) · nrm n else 0) + bias e,

  where z is the scatter's initial operand (a splat scalar), src' the shifted source column (the same vector on both
  sides, kept as a variable), and table the projected node table. The kernel's table is the product of the node table by
  the weight matrix padded with zero columns; at a column e < 40 the padded matrix is the matrix, so its entry is the sum
  over l of h (r, l) · w3 (l, e), which is what the host's contraction reads at (r, e). The padded bias at e < 40 is the
  bias. Nothing is distributed or cancelled: the two sums agree term by term.

  The tail of a layer (gather rows, scale, accumulate at the targets, add the bias) is read at an entry once, for any
  extents and any dimension-number records of the row-gather and row-scatter kind; both programs' tails are instances.
-/
import proofs.«411127_j66872640799057_3_alg».proof.Proof.LayerDefs
import proofs.«411127_j66872640799057_3_alg».proof.Proof.LibGatherRows
import proofs.«411127_j66872640799057_3_alg».proof.Proof.LibScatterAddRows
import Idealize.ShloMosaic.Lib.Pipeline.Value
import Idealize.ShloMosaic.Lib.ValueIdx
import Idealize.ShloMosaic.Lib.KernelVsHost
import Idealize.ShloMosaic.PureOps.Ideal.Laws

noncomputable section

open scoped BigOperators

namespace Cert.Bridge

open Idealize.ShloMosaic Idealize.ShloMosaic.ValueIdx

/-! ## The five broadcasts of a layer's tail, read at an entry (any extents) -/

section Broadcasts
variable {α : Type}

/-- A scalar broadcast to any shape reads the scalar. -/
theorem bcast_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply _ h x j ix0 (fun a => a.elim0)

/-- A vector [N] laid out as a column [N, 1] reads the vector at the row. -/
theorem bcast_col_apply {N : Nat} (h : (⟨1, ![N]⟩ : Shape).BroadcastsInDim ⟨2, ![N, 1]⟩ (![0] : Fin 1 → Fin 2))
    (x : (⟨1, ![N]⟩ : Shape).Idx → α) (n : Fin N) (z : Fin 1) :
    broadcastInDim ⟨2, ![N, 1]⟩ ![0] h x (ix2 n z) = x (ix1 n) :=
  broadcastInDim_apply _ h x _ (ix1 n) (fun a => match a with
    | ⟨0, _⟩ => by
      show n.val = if N = 1 then 0 else n.val
      split
      · have := n.isLt; omega
      · rfl)

/-- A column [N, 1] spread over D columns reads the column at the row. -/
theorem bcast_mat_of_col_apply {N D : Nat}
    (h : (⟨2, ![N, 1]⟩ : Shape).BroadcastsInDim ⟨2, ![N, D]⟩ (![0, 1] : Fin 2 → Fin 2))
    (x : (⟨2, ![N, 1]⟩ : Shape).Idx → α) (n : Fin N) (j : Fin D) :
    broadcastInDim ⟨2, ![N, D]⟩ ![0, 1] h x (ix2 n j) = x (ix2 n (0 : Fin 1)) :=
  broadcastInDim_apply _ h x _ (ix2 n (0 : Fin 1)) (fun a => match a with
    | ⟨0, _⟩ => by
      show n.val = if N = 1 then 0 else n.val
      split
      · have := n.isLt; omega
      · rfl
    | ⟨1, _⟩ => by
      show 0 = if (1 : Nat) = 1 then 0 else j.val
      rw [if_pos rfl])

/-- A vector [D] laid out as a row [1, D] reads the vector at the column. -/
theorem bcast_row_apply {D : Nat} (h : (⟨1, ![D]⟩ : Shape).BroadcastsInDim ⟨2, ![1, D]⟩ (![1] : Fin 1 → Fin 2))
    (x : (⟨1, ![D]⟩ : Shape).Idx → α) (z : Fin 1) (j : Fin D) :
    broadcastInDim ⟨2, ![1, D]⟩ ![1] h x (ix2 z j) = x (ix1 j) :=
  broadcastInDim_apply _ h x _ (ix1 j) (fun a => match a with
    | ⟨0, _⟩ => by
      show j.val = if D = 1 then 0 else j.val
      split
      · have := j.isLt; omega
      · rfl)

/-- A row [1, D] spread over C rows reads the row at the column. -/
theorem bcast_mat_of_row_apply {C D : Nat}
    (h : (⟨2, ![1, D]⟩ : Shape).BroadcastsInDim ⟨2, ![C, D]⟩ (![0, 1] : Fin 2 → Fin 2))
    (x : (⟨2, ![1, D]⟩ : Shape).Idx → α) (k : Fin C) (j : Fin D) :
    broadcastInDim ⟨2, ![C, D]⟩ ![0, 1] h x (ix2 k j) = x (ix2 (0 : Fin 1) j) :=
  broadcastInDim_apply _ h x _ (ix2 (0 : Fin 1) j) (fun a => match a with
    | ⟨0, _⟩ => by
      show 0 = if (1 : Nat) = 1 then 0 else k.val
      rw [if_pos rfl]
    | ⟨1, _⟩ => by
      show j.val = if D = 1 then 0 else j.val
      split
      · have := j.isLt; omega
      · rfl)

end Broadcasts

/-! ## A layer's tail read at an entry -/

/-- Rows of a table [C, D] gathered at a column of N start indices, row n scaled by nrm n, accumulated into a splat
    operand at a column of N target indices, a bias row added: entry (k, j) is the splat scalar, plus the sum over n of
    the scaled table row's entry when the target index reads k, plus the bias at j. -/
theorem tail_apply {C N D : Nat} (hC : 0 < C)
    (gd : GatherDims ⟨2, ![C, D]⟩ ⟨2, ![N, 1]⟩ ⟨2, ![N, D]⟩)
    (hoff : gd.offsetDims = [1]) (hcoll : gd.collapsedSliceDims = [0]) (hob : gd.operandBatchingDims = [])
    (hsim : gd.startIndexMap = [0]) (hivd : gd.indexVectorDim = 1)
    (wf : ScatterDims.WF ⟨2, ![C, D]⟩ ⟨2, ![N, 1]⟩ ⟨2, ![N, D]⟩ [1] [0] [0] 1)
    (h0 : (⟨0, ![]⟩ : Shape).BroadcastsInDim ⟨2, ![C, D]⟩ (![] : Fin 0 → Fin 2))
    (h1 : (⟨1, ![N]⟩ : Shape).BroadcastsInDim ⟨2, ![N, 1]⟩ (![0] : Fin 1 → Fin 2))
    (h2 : (⟨2, ![N, 1]⟩ : Shape).BroadcastsInDim ⟨2, ![N, D]⟩ (![0, 1] : Fin 2 → Fin 2))
    (h3 : (⟨1, ![D]⟩ : Shape).BroadcastsInDim ⟨2, ![1, D]⟩ (![1] : Fin 1 → Fin 2))
    (h4 : (⟨2, ![1, D]⟩ : Shape).BroadcastsInDim ⟨2, ![C, D]⟩ (![0, 1] : Fin 2 → Fin 2))
    (c : FVec Ideal ⟨0, ![]⟩ .f32) (p : FVec Ideal ⟨2, ![C, D]⟩ .f32) (s' dst : IVec ⟨1, ![N]⟩ 32)
    (nrm : FVec Ideal ⟨1, ![N]⟩ .f32) (b : FVec Ideal ⟨1, ![D]⟩ .f32) (k : Fin C) (j : Fin D) :
    addf
      (Host.scatterAdd (⟨[1], [0], [0], 1, wf⟩ : ScatterDims ⟨2, ![C, D]⟩ ⟨2, ![N, 1]⟩ ⟨2, ![N, D]⟩)
        (broadcastInDim ⟨2, ![C, D]⟩ ![] h0 c)
        (broadcastInDim ⟨2, ![N, 1]⟩ ![0] h1 dst)
        (mulf (Host.gather gd p (broadcastInDim ⟨2, ![N, 1]⟩ ![0] h1 s'))
          (broadcastInDim ⟨2, ![N, D]⟩ ![0, 1] h2 (broadcastInDim ⟨2, ![N, 1]⟩ ![0] h1 nrm))))
      (broadcastInDim ⟨2, ![C, D]⟩ ![0, 1] h4 (broadcastInDim ⟨2, ![1, D]⟩ ![1] h3 b)) (ix2 k j)
    = (c ix0 + ∑ n : Fin N, if (dst (ix1 n)).toInt = (k.val : ℤ)
          then p (ix2 ⟨min (s' (ix1 n)).toInt.toNat (C - 1), by omega⟩ j) * nrm (ix1 n) else 0)
      + b (ix1 j) := by
  rw [addf_apply]
  show Ideal.hostScatterAdd _ _ _ _ (ix2 k j) + _ = _
  rw [ScatterAddRows.scatterAdd_rows_apply, bcast_scalar_apply, bcast_mat_of_row_apply, bcast_row_apply]
  congr 2
  refine Finset.sum_congr rfl fun n _ => ?_
  rw [bcast_col_apply, mulf_apply, GatherRows.gather_rows gd hoff hcoll hob hsim hivd _ _ n j hC,
    bcast_mat_of_col_apply]
  have hs : broadcastInDim ⟨2, ![N, 1]⟩ ![0] h1 s' (ix2 n (0 : Fin 1)) = s' (ix1 n) := bcast_col_apply h1 s' n 0
  have hn : broadcastInDim ⟨2, ![N, 1]⟩ ![0] h1 nrm (ix2 n (0 : Fin 1)) = nrm (ix1 n) := bcast_col_apply h1 nrm n 0
  simp only [hs, hn]

/-! ## The two projected tables and the two biases at a column below 40 -/

/-- A column below 40, as a column below 128. -/
abbrev col128 (e : Fin 40) : Fin 128 := Fin.castLE (by decide) e

/-- The padded weight matrix at a column below 40 is the weight matrix there. -/
theorem padW_apply (w3 : FVec Ideal ⟨2, ![128, 40]⟩ .f32) (l : Fin 128) (e : Fin 40) :
    Cert.KernelIdeal.Bridge.padW w3 (ix2 l (col128 e)) = w3 (ix2 l e) := by
  unfold Cert.KernelIdeal.Bridge.padW
  exact pad_apply_of_inside _ _ _ w3 _ _ _ (ix2 l (col128 e)) (ix2 l e) (fun a => match a with
    | ⟨0, _⟩ => by show l.val = 0 + l.val * (0 + 1); omega
    | ⟨1, _⟩ => by show e.val = 0 + e.val * (0 + 1); omega)

/-- The padded bias at a column below 40 is the bias there. -/
theorem padB_apply (b3 : FVec Ideal ⟨1, ![40]⟩ .f32) (e : Fin 40) :
    Cert.KernelIdeal.Bridge.padB b3 (ix1 (col128 e)) = b3 (ix1 e) := by
  unfold Cert.KernelIdeal.Bridge.padB
  exact pad_apply_of_inside _ _ _ b3 _ _ _ (ix1 (col128 e)) (ix1 e) (fun a => match a with
    | ⟨0, _⟩ => by show e.val = 0 + e.val * (0 + 1); omega)

/-- The kernel's projected table at (r, e), e below 40: the sum over l of h (r, l) · w3 (l, e). -/
theorem matProd_padW_apply (h : FVec Ideal ⟨2, ![50000, 128]⟩ .f32) (w3 : FVec Ideal ⟨2, ![128, 40]⟩ .f32)
    (r : Fin 50000) (e : Fin 40) :
    matProd h (Cert.KernelIdeal.Bridge.padW w3) (ix2 r (col128 e)) = ∑ l : Fin 128, h (ix2 r l) * w3 (ix2 l e) := by
  show ∑ l : Fin 128, h (ix2 r l) * Cert.KernelIdeal.Bridge.padW w3 (ix2 l (col128 e)) = _
  exact Finset.sum_congr rfl fun l _ => by rw [padW_apply]

/-- The reference's projected table at (r, e): the host's contraction over the one contracted axis, the same sum. -/
theorem proj40_apply (h : FVec Ideal ⟨2, ![50000, 128]⟩ .f32) (w3 : FVec Ideal ⟨2, ![128, 40]⟩ .f32)
    (r : Fin 50000) (e : Fin 40) :
    Cert.ReferenceIdeal.Bridge.proj40 h w3 (ix2 r e) = ∑ l : Fin 128, h (ix2 r l) * w3 (ix2 l e) := by
  unfold Cert.ReferenceIdeal.Bridge.proj40
  simp only [Host.dotGeneral]
  rw [Ideal.dotGeneral_apply,
    ← Equiv.sum_comp (contrEquiv1 Cert.ReferenceIdeal.dot_S50000x128_S128x40_S50000x40_1_0_0_1_n_n 128 rfl rfl).symm]
  refine Finset.sum_congr rfl fun l _ => ?_
  have hl := contrEquiv1_symm_val Cert.ReferenceIdeal.dot_S50000x128_S128x40_S50000x40_1_0_0_1_n_n 128 rfl rfl l
  -- the left operand is read at (r, l): axis 0 is the free axis, axis 1 the contracted one
  have l0 : ∀ q, (Cert.ReferenceIdeal.dot_S50000x128_S128x40_S50000x40_1_0_0_1_n_n.lhsIdx (ix2 r e) q 0).val = r.val :=
    fun q => by
      unfold DotDims.lhsIdx
      rw [dif_neg (show ¬(0 : Fin 2) ∈ Cert.ReferenceIdeal.dot_S50000x128_S128x40_S50000x40_1_0_0_1_n_n.lhsBatch by decide),
        dif_pos (show (0 : Fin 2) ∈ Cert.ReferenceIdeal.dot_S50000x128_S128x40_S50000x40_1_0_0_1_n_n.lhsNonContracting by decide)]
      rfl
  have el : Cert.ReferenceIdeal.dot_S50000x128_S128x40_S50000x40_1_0_0_1_n_n.lhsIdx (ix2 r e)
      ((contrEquiv1 Cert.ReferenceIdeal.dot_S50000x128_S128x40_S50000x40_1_0_0_1_n_n 128 rfl rfl).symm l) = ix2 r l :=
    funext fun a => Fin.ext (by
      match a with
      | ⟨0, _⟩ => exact l0 _
      | ⟨1, _⟩ =>
        exact (Cert.ReferenceIdeal.dot_S50000x128_S128x40_S50000x40_1_0_0_1_n_n.lhsIdx_val_of_single rfl (ix2 r e) _).trans hl)
  -- the right operand is read at (l, e): axis 0 is the contracted axis, axis 1 the free one
  have r1 : ∀ q, (Cert.ReferenceIdeal.dot_S50000x128_S128x40_S50000x40_1_0_0_1_n_n.rhsIdx (ix2 r e) q 1).val = e.val :=
    fun q => by
      unfold DotDims.rhsIdx
      rw [dif_neg (show ¬(1 : Fin 2) ∈ Cert.ReferenceIdeal.dot_S50000x128_S128x40_S50000x40_1_0_0_1_n_n.rhsBatch by decide),
        dif_pos (show (1 : Fin 2) ∈ Cert.ReferenceIdeal.dot_S50000x128_S128x40_S50000x40_1_0_0_1_n_n.rhsNonContracting by decide)]
      rfl
  have er : Cert.ReferenceIdeal.dot_S50000x128_S128x40_S50000x40_1_0_0_1_n_n.rhsIdx (ix2 r e)
      ((contrEquiv1 Cert.ReferenceIdeal.dot_S50000x128_S128x40_S50000x40_1_0_0_1_n_n 128 rfl rfl).symm l) = ix2 l e :=
    funext fun a => Fin.ext (by
      match a with
      | ⟨0, _⟩ =>
        exact (Cert.ReferenceIdeal.dot_S50000x128_S128x40_S50000x40_1_0_0_1_n_n.rhsIdx_val_of_single rfl (ix2 r e) _).trans hl
      | ⟨1, _⟩ => exact r1 _)
  rw [el, er]

/-! ## The join -/

/-- Two sums of the layer's form with the same initial value and the same bias agree when their terms do. -/
theorem sums_congr {N : Nat} (z b : EReal) (f g : Fin N → EReal) (hfg : ∀ n, f n = g n) :
    (z + ∑ n : Fin N, f n) + b = (z + ∑ n : Fin N, g n) + b := by
  rw [show f = g from funext hfg]

/-- The last layer at width 128 — the weight matrix and the bias padded with zero columns — cut to its first 40 columns
    is the last layer at width 40. -/
theorem lastLayer (h : FVec Ideal ⟨2, ![50000, 128]⟩ .f32) (w3 : FVec Ideal ⟨2, ![128, 40]⟩ .f32)
    (b3 : FVec Ideal ⟨1, ![40]⟩ .f32) (src dst : IVec ⟨1, ![850000]⟩ 32) (nrm : FVec Ideal ⟨1, ![850000]⟩ .f32) :
    Cert.KernelIdeal.Bridge.tail128 (Cert.Bridge.matProd h (Cert.KernelIdeal.Bridge.padW w3)) src dst nrm
        (Cert.KernelIdeal.Bridge.padB b3)
      = Cert.ReferenceIdeal.Bridge.tail40 (Cert.ReferenceIdeal.Bridge.proj40 h w3) src dst nrm b3 := by
  funext i
  obtain ⟨k, e, rfl⟩ : ∃ (k : Fin 50000) (e : Fin 40), i = ix2 k e := ⟨i 0, i 1, eq_ix2 i⟩
  unfold Cert.KernelIdeal.Bridge.tail128 Cert.ReferenceIdeal.Bridge.tail40
  -- the kernel side: the slice reads column e of the width-128 tail
  refine Eq.trans (extractStridedSlice_apply _ _ _ (ix2 k e) (ix2 k (col128 e)) (fun a => match a with
    | ⟨0, _⟩ => by show k.val = 0 + k.val; omega
    | ⟨1, _⟩ => by show e.val = 0 + e.val; omega)) ?_
  refine Eq.trans (tail_apply (by decide) Cert.KernelIdeal.gather_S50000x128_S850000x1_S850000x128_1_0_n_n_0_1_1128
    rfl rfl rfl rfl rfl _ _ _ _ _ _ _ _ _ _ _ _ k (col128 e)) ?_
  -- the reference side
  refine Eq.trans ?_ (tail_apply (by decide) Cert.ReferenceIdeal.gather_S50000x40_S850000x1_S850000x40_1_0_n_n_0_1_140
    rfl rfl rfl rfl rfl _ _ _ _ _ _ _ _ _ _ _ _ k e).symm
  -- the two explicit sums, term by term: the projected tables agree at every row, and the biases at column e
  rw [padB_apply]
  refine sums_congr _ _ _ _ fun n => ?_
  rw [matProd_padW_apply, proj40_apply]

end Cert.Bridge

end
-- ==== Proof.KStages.lean ====
/-
  The kernel program's result as the reference's stage functions of the arguments.

  The kernel program is the reference's program with each dense projection x @ W replaced by a pallas_call and the last
  layer computed at width 128 on zero-padded weights and bias, then cut to 40 columns. Layer by layer:
  * the edge index vectors and the edge coefficients are the same host operations of the edge list;
  * a pallas_call's output array is the matrix product of its two input arrays (each row block is the product of the
    block of rows by the whole weight matrix), and so is the reference's dot_general: a sum over the 128 contracted
    entries on both sides;
  * between two projections both programs apply the same host operations (gather at the sources, scale, scatter-add at the
    targets, bias, batch normalisation over the node axis, relu) to equal values;
  * in the last layer the padded columns never reach the first 40 columns of the result (`lastLayer`), and the log-softmax
    is the same host operations of equal values.
-/
import proofs.«411127_j66872640799057_3_alg».proof.Proof.Carry
import proofs.«411127_j66872640799057_3_alg».proof.Proof.LibTypedRef
import proofs.«411127_j66872640799057_3_alg».proof.Proof.RegionValue
import proofs.«411127_j66872640799057_3_alg».proof.Proof.LastLayer
import proofs.«411127_j66872640799057_3_alg».proof.Proof.RefRead

set_option maxRecDepth 16384
-- one declaration at a time: each reading of a stretch of operations holds a large goal while it runs
set_option Elab.async false

noncomputable section

namespace Cert.KernelIdeal.KStages

open Cert.KernelIdeal Cert.KernelIdeal.Gen
open Idealize.ShloMosaic Idealize.ShloMosaic.TcCoe Idealize.ShloMosaic.StableHlo Idealize.SL.Sem
open Cert.ReferenceIdeal.RefRead (val_main_v3 val_main_v6 val_main_v28 val_main_v29 val_main_v71 val_main_v72 val_main_v114
  val_main_v115 val_main_v131 val_main_v132 val_main_v29_apply lidx_main_v29 ridx_main_v29)

/-- Opens the boundary contents down to the last region's exit (or the launch) and reads the stretch's operations at the
    buffer asked for, in one pass: what is left is stated over the contents the stretch started from. -/
macro "stretch_read" : tactic =>
  `(tactic| (dsimp only [W1, W3, W4, W6, W7, W8, W9, W10, W11, hostOps0, hostOps1, hostOps1_1, hostOps2, hostOps2_1,
      hostOps2_2, hostOps2_3, hostOps2_4, hostOps2_5]; after_results_simp))

/-- The same by one rewrite per operation: for a stretch whose results hold a concatenate of computed pieces, which the
    one-pass reading leaves in a form that the closing comparison would evaluate. -/
macro "stretch_read_rw" : tactic =>
  `(tactic| (dsimp only [W1, W3, W4, W6, W7, W8, W9, W10, W11, hostOps0, hostOps1, hostOps1_1, hostOps2, hostOps2_1,
      hostOps2_2, hostOps2_3, hostOps2_4, hostOps2_5]; after_results))

section Generic

variable {F : FTy → Type} [FloatOps F]
variable (m : (ℓ : Loc nD τ sig) → Buf (Elt F) ℓ) (ρ : Dev nD → PrngReg) (c : Dev nD)

/-! ## Before the first region: the edge index vectors and coefficients -/

set_option maxHeartbeats 4000000 in
theorem W1_v3 : W1 m ρ c (Proc.devRef .tc main_v3) = val_main_v3 (F := F) (m ((c : Thread nD τ).loc main_arg1)) := by stretch_read_rw <;> rfl
set_option maxHeartbeats 4000000 in
theorem W1_v6 : W1 m ρ c (Proc.devRef .tc main_v6) = val_main_v6 (F := F) (m ((c : Thread nD τ).loc main_arg1)) := by stretch_read_rw <;> rfl
set_option maxHeartbeats 4000000 in
theorem W1_v28 : W1 m ρ c (Proc.devRef .tc main_v28) = val_main_v28 (F := F) (m ((c : Thread nD τ).loc main_arg1)) := by stretch_read_rw <;> rfl

/-! ## The first layer after its projection -/

set_option maxHeartbeats 8000000 in
theorem W4_v71 (hp : W2 m ρ c (Proc.devRef .tc main_v29) = val_main_v29 (F := F) (m ((c : Thread nD τ).loc main_arg0)) (m ((c : Thread nD τ).loc main_arg2))) :
    W4 m ρ c (Proc.devRef .tc main_v71) = val_main_v71 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  stretch_read
  rw [W2_v3, W2_v6, W2_v28, W1_v3, W1_v6, W1_v28, hp, W2_arg3, W2_arg4, W2_arg5]
  rfl

/-! ## The second layer after its projection -/

set_option maxHeartbeats 8000000 in
theorem W11_v114 (hp : W5 m ρ c (Proc.devRef .tc main_v72) = val_main_v72 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W11 m ρ c (Proc.devRef .tc main_v114) = val_main_v114 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  stretch_read
  rw [W5_v3, W5_v6, W5_v28, W1_v3, W1_v6, W1_v28, hp, W5_arg7, W5_arg8, W5_arg9]
  rfl

/-! ## The log-softmax -/

set_option maxHeartbeats 4000000 in
theorem W14_v135 (h : W13 m ρ c (Proc.devRef .tc main_v134) = val_main_v131 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :
    W14 m ρ c (Proc.devRef .tc main_v135) = val_main_v132 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show after hostOps3_1 (W13 m ρ c) (Proc.devRef .tc main_v135) = _
  generalize W13 m ρ c = Wx at h ⊢
  dsimp only [hostOps3_1]; after_results
  rw [h]
  simp only [TRef.ofBuf_toBuf]
  rfl

end Generic

section AtIdeal

variable (m : (ℓ : Loc nD τ sig) → Buf (Elt Ideal) ℓ) (ρ : Dev nD → PrngReg) (c : Dev nD)

/-! ## The padded weights and bias, and the last layer at width 128 -/

set_option maxHeartbeats 4000000 in
theorem W11_v115 : W11 m ρ c (Proc.devRef .tc main_v115) = Cert.KernelIdeal.Bridge.padW (m ((c : Thread nD τ).loc main_arg10)) := by
  stretch_read
  rw [W5_arg10]
  rfl
set_option maxHeartbeats 4000000 in
theorem W11_v116 : W11 m ρ c (Proc.devRef .tc main_v116) = Cert.KernelIdeal.Bridge.padB (m ((c : Thread nD τ).loc main_arg11)) := by
  stretch_read
  rw [W5_arg11]
  rfl
theorem W12_v116 : W12 m ρ c (Proc.devRef .tc main_v116) = Cert.KernelIdeal.Bridge.padB (m ((c : Thread nD τ).loc main_arg11)) :=
  (W12_of_ne m ρ c main_v116 (by decide)).trans (W11_v116 m ρ c)

set_option maxHeartbeats 4000000 in
theorem W13_v134 (P : FVec Ideal S50000x128 .f32) (hp : W12 m ρ c (Proc.devRef .tc main_v117) = P) :
    W13 m ρ c (Proc.devRef .tc main_v134)
      = Cert.KernelIdeal.Bridge.tail128 P (val_main_v3 (F := Ideal) (m ((c : Thread nD τ).loc main_arg1))) (val_main_v6 (F := Ideal) (m ((c : Thread nD τ).loc main_arg1)))
          (val_main_v28 (F := Ideal) (m ((c : Thread nD τ).loc main_arg1))) (Cert.KernelIdeal.Bridge.padB (m ((c : Thread nD τ).loc main_arg11))) := by
  dsimp only [W13, hostOps3]; after_results_simp
  rw [W12_v3, W12_v6, W12_v28, W1_v3, W1_v6, W1_v28, hp, W12_v116]
  rfl

/-! ## The reference's dot_general is the matrix product -/

theorem dot_eq_matProd (x : FVec Ideal S50000x128 .f32) (w : FVec Ideal S128x128 .f32) :
    val_main_v29 (F := Ideal) x w = Cert.Bridge.matProd x w := by
  funext i
  rw [val_main_v29_apply]
  unfold Cert.Bridge.matProd
  refine Finset.sum_congr rfl fun l _ => ?_
  have e1 : lidx_main_v29 i l = ValueIdx.ix2 (⟨(i 0).val, (i 0).isLt⟩ : Fin 50000) l :=
    funext fun a => by match a with | ⟨0, _⟩ => rfl | ⟨1, _⟩ => rfl
  have e2 : ridx_main_v29 i l = ValueIdx.ix2 l (⟨(i 1).val, (i 1).isLt⟩ : Fin 128) :=
    funext fun a => by match a with | ⟨0, _⟩ => rfl | ⟨1, _⟩ => rfl
  rw [e1, e2]

/-! ## The whole program -/

set_option maxHeartbeats 4000000 in
/-- The kernel program's result buffer ends at the reference's last stage function of the launch arguments. -/
theorem result_eq :
    W14 m ρ c (Proc.devRef .tc main_v135) = val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have hp1 : W2 m ρ c (Proc.devRef .tc main_v29) = val_main_v29 (F := Ideal) (m ((c : Thread nD τ).loc main_arg0)) (m ((c : Thread nD τ).loc main_arg2)) := by
    refine ((W2_arr m ρ c 2).trans (Cert.KernelIdeal.RegionValue.arrAt0 (V1 m ρ) c)).trans ?_
    rw [show V1 m ρ c (Pipeline.arrRef spec0 0) = (m ((c : Thread nD τ).loc main_arg0)) from W1_arg0 m ρ c,
      show V1 m ρ c (Pipeline.arrRef spec0 1) = (m ((c : Thread nD τ).loc main_arg2)) from W1_arg2 m ρ c]
    exact (dot_eq_matProd _ _).symm
  have h71 := W4_v71 m ρ c hp1
  have hp2 : W5 m ρ c (Proc.devRef .tc main_v72) = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
    refine ((W5_arr m ρ c 2).trans (Cert.KernelIdeal.RegionValue.arrAt1 (V4 m ρ) c)).trans ?_
    rw [show V4 m ρ c (Pipeline.arrRef spec1 0) = _ from h71,
      show V4 m ρ c (Pipeline.arrRef spec1 1) = (m ((c : Thread nD τ).loc main_arg6)) from W4_arg6 m ρ c]
    exact (dot_eq_matProd _ _).symm
  have h114 := W11_v114 m ρ c hp2
  have hp3 : W12 m ρ c (Proc.devRef .tc main_v117)
      = Cert.Bridge.matProd (val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (Cert.KernelIdeal.Bridge.padW (m ((c : Thread nD τ).loc main_arg10))) := by
    refine ((W12_arr m ρ c 2).trans (Cert.KernelIdeal.RegionValue.arrAt2 (V11 m ρ) c)).trans ?_
    rw [show V11 m ρ c (Pipeline.arrRef spec2 0) = _ from h114,
      show V11 m ρ c (Pipeline.arrRef spec2 1) = _ from W11_v115 m ρ c]
  refine W14_v135 m ρ c (((W13_v134 m ρ c _ hp3).trans (Cert.Bridge.lastLayer _ _ _ _ _ _)).trans ?_)
  rfl

end AtIdeal

end Cert.KernelIdeal.KStages

end
-- ==== Proof.RefStages.lean ====
/-
  The reference's run, part by part.

  @main of the reference is a straight line of 177 host operations. Cut into five parts — the edge index vectors and
  coefficients; the first layer; the second layer; the third layer; the log-softmax — the buffer contents after each
  part are the fold of that part's operations over the contents before it. Each value that a later part reads is named by
  the stage function of its buffer (`val_<buffer>`: the operation applied to the stage functions of its operands), so that
  no part's statement holds a whole expanded term: a part is read once, its leaves are the stage functions of the part
  before, and the comparison with the stage function is structural. A buffer that no operation of a part writes holds
  after the part what it held before; the arguments are written by none.
-/
import proofs.«411127_j66872640799057_3_alg».proof.Proof.RefRun
import proofs.«411127_j66872640799057_3_alg».proof.Proof.RefRead
import proofs.«411127_j66872640799057_3_alg».proof.Proof.LibTypedRef

set_option maxRecDepth 16384
-- one declaration at a time: each reading of a stretch of operations holds a large goal while it runs
set_option Elab.async false

noncomputable section

namespace Cert.ReferenceIdeal.RefStages

open Cert.ReferenceIdeal Cert.ReferenceIdeal.Gen Cert.ReferenceIdeal.RefRun Cert.ReferenceIdeal.RefRead
open Idealize.ShloMosaic Idealize.ShloMosaic.TcCoe Idealize.SL.Sem Idealize.ShloMosaic.StableHlo

variable {F : FTy → Type} [FloatOps F] (V0 : Valuation τ sig (Elt F))

/-- The buffer contents after the first part, the first two, … , and all five. -/
def rv1 : Valuation τ sig (Elt F) := after ops_part0 V0
def rv2 : Valuation τ sig (Elt F) := after ops_part1 (rv1 V0)
def rv3 : Valuation τ sig (Elt F) := after ops_part2 (rv2 V0)
def rv4 : Valuation τ sig (Elt F) := after ops_part3 (rv3 V0)
def rv5 : Valuation τ sig (Elt F) := after ops_part4 (rv4 V0)

theorem after_ops_eq : after ops V0 = rv5 V0 := after_ops V0

/-- Reads a part's operations at the buffer asked for, in one pass: what is left is stated over the contents the part
    started from. -/
macro "part_read" : tactic =>
  `(tactic| (dsimp only [ops_part0, ops_part1, ops_part2, ops_part3, ops_part4]; after_results_simp))

/-- The same by one rewrite per operation: for the first part, whose results hold a concatenate of computed pieces, which
    the one-pass reading leaves in a form that the closing comparison would evaluate. -/
macro "part_read_rw" : tactic =>
  `(tactic| (dsimp only [ops_part0, ops_part1, ops_part2, ops_part3, ops_part4]; after_results))

/-- A buffer that no operation of one part writes holds after it what it held before. -/
macro "keepsR" : tactic =>
  `(tactic| exact StableHlo.after_of_forall_not_mem _ _ (List.forall_iff_forall_mem.mp (by
      simp only [ops_part0, ops_part1, ops_part2, ops_part3, ops_part4, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## The arguments are written by no operation -/

theorem rv1_arg0 : rv1 V0 (Proc.devRef .tc main_arg0) = V0 (Proc.devRef .tc main_arg0) := by unfold rv1; keepsR
theorem rv1_arg1 : rv1 V0 (Proc.devRef .tc main_arg1) = V0 (Proc.devRef .tc main_arg1) := by unfold rv1; keepsR
theorem rv1_arg2 : rv1 V0 (Proc.devRef .tc main_arg2) = V0 (Proc.devRef .tc main_arg2) := by unfold rv1; keepsR
theorem rv1_arg3 : rv1 V0 (Proc.devRef .tc main_arg3) = V0 (Proc.devRef .tc main_arg3) := by unfold rv1; keepsR
theorem rv1_arg4 : rv1 V0 (Proc.devRef .tc main_arg4) = V0 (Proc.devRef .tc main_arg4) := by unfold rv1; keepsR
theorem rv1_arg5 : rv1 V0 (Proc.devRef .tc main_arg5) = V0 (Proc.devRef .tc main_arg5) := by unfold rv1; keepsR
theorem rv1_arg6 : rv1 V0 (Proc.devRef .tc main_arg6) = V0 (Proc.devRef .tc main_arg6) := by unfold rv1; keepsR
theorem rv1_arg7 : rv1 V0 (Proc.devRef .tc main_arg7) = V0 (Proc.devRef .tc main_arg7) := by unfold rv1; keepsR
theorem rv1_arg8 : rv1 V0 (Proc.devRef .tc main_arg8) = V0 (Proc.devRef .tc main_arg8) := by unfold rv1; keepsR
theorem rv1_arg9 : rv1 V0 (Proc.devRef .tc main_arg9) = V0 (Proc.devRef .tc main_arg9) := by unfold rv1; keepsR
theorem rv1_arg10 : rv1 V0 (Proc.devRef .tc main_arg10) = V0 (Proc.devRef .tc main_arg10) := by unfold rv1; keepsR
theorem rv1_arg11 : rv1 V0 (Proc.devRef .tc main_arg11) = V0 (Proc.devRef .tc main_arg11) := by unfold rv1; keepsR
theorem rv2_arg0 : rv2 V0 (Proc.devRef .tc main_arg0) = V0 (Proc.devRef .tc main_arg0) := by
  unfold rv2; exact (by keepsR : _ = rv1 V0 (Proc.devRef .tc main_arg0)).trans (rv1_arg0 V0)
theorem rv2_arg1 : rv2 V0 (Proc.devRef .tc main_arg1) = V0 (Proc.devRef .tc main_arg1) := by
  unfold rv2; exact (by keepsR : _ = rv1 V0 (Proc.devRef .tc main_arg1)).trans (rv1_arg1 V0)
theorem rv2_arg2 : rv2 V0 (Proc.devRef .tc main_arg2) = V0 (Proc.devRef .tc main_arg2) := by
  unfold rv2; exact (by keepsR : _ = rv1 V0 (Proc.devRef .tc main_arg2)).trans (rv1_arg2 V0)
theorem rv2_arg3 : rv2 V0 (Proc.devRef .tc main_arg3) = V0 (Proc.devRef .tc main_arg3) := by
  unfold rv2; exact (by keepsR : _ = rv1 V0 (Proc.devRef .tc main_arg3)).trans (rv1_arg3 V0)
theorem rv2_arg4 : rv2 V0 (Proc.devRef .tc main_arg4) = V0 (Proc.devRef .tc main_arg4) := by
  unfold rv2; exact (by keepsR : _ = rv1 V0 (Proc.devRef .tc main_arg4)).trans (rv1_arg4 V0)
theorem rv2_arg5 : rv2 V0 (Proc.devRef .tc main_arg5) = V0 (Proc.devRef .tc main_arg5) := by
  unfold rv2; exact (by keepsR : _ = rv1 V0 (Proc.devRef .tc main_arg5)).trans (rv1_arg5 V0)
theorem rv2_arg6 : rv2 V0 (Proc.devRef .tc main_arg6) = V0 (Proc.devRef .tc main_arg6) := by
  unfold rv2; exact (by keepsR : _ = rv1 V0 (Proc.devRef .tc main_arg6)).trans (rv1_arg6 V0)
theorem rv2_arg7 : rv2 V0 (Proc.devRef .tc main_arg7) = V0 (Proc.devRef .tc main_arg7) := by
  unfold rv2; exact (by keepsR : _ = rv1 V0 (Proc.devRef .tc main_arg7)).trans (rv1_arg7 V0)
theorem rv2_arg8 : rv2 V0 (Proc.devRef .tc main_arg8) = V0 (Proc.devRef .tc main_arg8) := by
  unfold rv2; exact (by keepsR : _ = rv1 V0 (Proc.devRef .tc main_arg8)).trans (rv1_arg8 V0)
theorem rv2_arg9 : rv2 V0 (Proc.devRef .tc main_arg9) = V0 (Proc.devRef .tc main_arg9) := by
  unfold rv2; exact (by keepsR : _ = rv1 V0 (Proc.devRef .tc main_arg9)).trans (rv1_arg9 V0)
theorem rv2_arg10 : rv2 V0 (Proc.devRef .tc main_arg10) = V0 (Proc.devRef .tc main_arg10) := by
  unfold rv2; exact (by keepsR : _ = rv1 V0 (Proc.devRef .tc main_arg10)).trans (rv1_arg10 V0)
theorem rv2_arg11 : rv2 V0 (Proc.devRef .tc main_arg11) = V0 (Proc.devRef .tc main_arg11) := by
  unfold rv2; exact (by keepsR : _ = rv1 V0 (Proc.devRef .tc main_arg11)).trans (rv1_arg11 V0)
theorem rv3_arg0 : rv3 V0 (Proc.devRef .tc main_arg0) = V0 (Proc.devRef .tc main_arg0) := by
  unfold rv3; exact (by keepsR : _ = rv2 V0 (Proc.devRef .tc main_arg0)).trans (rv2_arg0 V0)
theorem rv3_arg1 : rv3 V0 (Proc.devRef .tc main_arg1) = V0 (Proc.devRef .tc main_arg1) := by
  unfold rv3; exact (by keepsR : _ = rv2 V0 (Proc.devRef .tc main_arg1)).trans (rv2_arg1 V0)
theorem rv3_arg2 : rv3 V0 (Proc.devRef .tc main_arg2) = V0 (Proc.devRef .tc main_arg2) := by
  unfold rv3; exact (by keepsR : _ = rv2 V0 (Proc.devRef .tc main_arg2)).trans (rv2_arg2 V0)
theorem rv3_arg3 : rv3 V0 (Proc.devRef .tc main_arg3) = V0 (Proc.devRef .tc main_arg3) := by
  unfold rv3; exact (by keepsR : _ = rv2 V0 (Proc.devRef .tc main_arg3)).trans (rv2_arg3 V0)
theorem rv3_arg4 : rv3 V0 (Proc.devRef .tc main_arg4) = V0 (Proc.devRef .tc main_arg4) := by
  unfold rv3; exact (by keepsR : _ = rv2 V0 (Proc.devRef .tc main_arg4)).trans (rv2_arg4 V0)
theorem rv3_arg5 : rv3 V0 (Proc.devRef .tc main_arg5) = V0 (Proc.devRef .tc main_arg5) := by
  unfold rv3; exact (by keepsR : _ = rv2 V0 (Proc.devRef .tc main_arg5)).trans (rv2_arg5 V0)
theorem rv3_arg6 : rv3 V0 (Proc.devRef .tc main_arg6) = V0 (Proc.devRef .tc main_arg6) := by
  unfold rv3; exact (by keepsR : _ = rv2 V0 (Proc.devRef .tc main_arg6)).trans (rv2_arg6 V0)
theorem rv3_arg7 : rv3 V0 (Proc.devRef .tc main_arg7) = V0 (Proc.devRef .tc main_arg7) := by
  unfold rv3; exact (by keepsR : _ = rv2 V0 (Proc.devRef .tc main_arg7)).trans (rv2_arg7 V0)
theorem rv3_arg8 : rv3 V0 (Proc.devRef .tc main_arg8) = V0 (Proc.devRef .tc main_arg8) := by
  unfold rv3; exact (by keepsR : _ = rv2 V0 (Proc.devRef .tc main_arg8)).trans (rv2_arg8 V0)
theorem rv3_arg9 : rv3 V0 (Proc.devRef .tc main_arg9) = V0 (Proc.devRef .tc main_arg9) := by
  unfold rv3; exact (by keepsR : _ = rv2 V0 (Proc.devRef .tc main_arg9)).trans (rv2_arg9 V0)
theorem rv3_arg10 : rv3 V0 (Proc.devRef .tc main_arg10) = V0 (Proc.devRef .tc main_arg10) := by
  unfold rv3; exact (by keepsR : _ = rv2 V0 (Proc.devRef .tc main_arg10)).trans (rv2_arg10 V0)
theorem rv3_arg11 : rv3 V0 (Proc.devRef .tc main_arg11) = V0 (Proc.devRef .tc main_arg11) := by
  unfold rv3; exact (by keepsR : _ = rv2 V0 (Proc.devRef .tc main_arg11)).trans (rv2_arg11 V0)
theorem rv4_arg0 : rv4 V0 (Proc.devRef .tc main_arg0) = V0 (Proc.devRef .tc main_arg0) := by
  unfold rv4; exact (by keepsR : _ = rv3 V0 (Proc.devRef .tc main_arg0)).trans (rv3_arg0 V0)
theorem rv4_arg1 : rv4 V0 (Proc.devRef .tc main_arg1) = V0 (Proc.devRef .tc main_arg1) := by
  unfold rv4; exact (by keepsR : _ = rv3 V0 (Proc.devRef .tc main_arg1)).trans (rv3_arg1 V0)
theorem rv4_arg2 : rv4 V0 (Proc.devRef .tc main_arg2) = V0 (Proc.devRef .tc main_arg2) := by
  unfold rv4; exact (by keepsR : _ = rv3 V0 (Proc.devRef .tc main_arg2)).trans (rv3_arg2 V0)
theorem rv4_arg3 : rv4 V0 (Proc.devRef .tc main_arg3) = V0 (Proc.devRef .tc main_arg3) := by
  unfold rv4; exact (by keepsR : _ = rv3 V0 (Proc.devRef .tc main_arg3)).trans (rv3_arg3 V0)
theorem rv4_arg4 : rv4 V0 (Proc.devRef .tc main_arg4) = V0 (Proc.devRef .tc main_arg4) := by
  unfold rv4; exact (by keepsR : _ = rv3 V0 (Proc.devRef .tc main_arg4)).trans (rv3_arg4 V0)
theorem rv4_arg5 : rv4 V0 (Proc.devRef .tc main_arg5) = V0 (Proc.devRef .tc main_arg5) := by
  unfold rv4; exact (by keepsR : _ = rv3 V0 (Proc.devRef .tc main_arg5)).trans (rv3_arg5 V0)
theorem rv4_arg6 : rv4 V0 (Proc.devRef .tc main_arg6) = V0 (Proc.devRef .tc main_arg6) := by
  unfold rv4; exact (by keepsR : _ = rv3 V0 (Proc.devRef .tc main_arg6)).trans (rv3_arg6 V0)
theorem rv4_arg7 : rv4 V0 (Proc.devRef .tc main_arg7) = V0 (Proc.devRef .tc main_arg7) := by
  unfold rv4; exact (by keepsR : _ = rv3 V0 (Proc.devRef .tc main_arg7)).trans (rv3_arg7 V0)
theorem rv4_arg8 : rv4 V0 (Proc.devRef .tc main_arg8) = V0 (Proc.devRef .tc main_arg8) := by
  unfold rv4; exact (by keepsR : _ = rv3 V0 (Proc.devRef .tc main_arg8)).trans (rv3_arg8 V0)
theorem rv4_arg9 : rv4 V0 (Proc.devRef .tc main_arg9) = V0 (Proc.devRef .tc main_arg9) := by
  unfold rv4; exact (by keepsR : _ = rv3 V0 (Proc.devRef .tc main_arg9)).trans (rv3_arg9 V0)
theorem rv4_arg10 : rv4 V0 (Proc.devRef .tc main_arg10) = V0 (Proc.devRef .tc main_arg10) := by
  unfold rv4; exact (by keepsR : _ = rv3 V0 (Proc.devRef .tc main_arg10)).trans (rv3_arg10 V0)
theorem rv4_arg11 : rv4 V0 (Proc.devRef .tc main_arg11) = V0 (Proc.devRef .tc main_arg11) := by
  unfold rv4; exact (by keepsR : _ = rv3 V0 (Proc.devRef .tc main_arg11)).trans (rv3_arg11 V0)
theorem rv5_arg0 : rv5 V0 (Proc.devRef .tc main_arg0) = V0 (Proc.devRef .tc main_arg0) := by
  unfold rv5; exact (by keepsR : _ = rv4 V0 (Proc.devRef .tc main_arg0)).trans (rv4_arg0 V0)
theorem rv5_arg1 : rv5 V0 (Proc.devRef .tc main_arg1) = V0 (Proc.devRef .tc main_arg1) := by
  unfold rv5; exact (by keepsR : _ = rv4 V0 (Proc.devRef .tc main_arg1)).trans (rv4_arg1 V0)
theorem rv5_arg2 : rv5 V0 (Proc.devRef .tc main_arg2) = V0 (Proc.devRef .tc main_arg2) := by
  unfold rv5; exact (by keepsR : _ = rv4 V0 (Proc.devRef .tc main_arg2)).trans (rv4_arg2 V0)
theorem rv5_arg3 : rv5 V0 (Proc.devRef .tc main_arg3) = V0 (Proc.devRef .tc main_arg3) := by
  unfold rv5; exact (by keepsR : _ = rv4 V0 (Proc.devRef .tc main_arg3)).trans (rv4_arg3 V0)
theorem rv5_arg4 : rv5 V0 (Proc.devRef .tc main_arg4) = V0 (Proc.devRef .tc main_arg4) := by
  unfold rv5; exact (by keepsR : _ = rv4 V0 (Proc.devRef .tc main_arg4)).trans (rv4_arg4 V0)
theorem rv5_arg5 : rv5 V0 (Proc.devRef .tc main_arg5) = V0 (Proc.devRef .tc main_arg5) := by
  unfold rv5; exact (by keepsR : _ = rv4 V0 (Proc.devRef .tc main_arg5)).trans (rv4_arg5 V0)
theorem rv5_arg6 : rv5 V0 (Proc.devRef .tc main_arg6) = V0 (Proc.devRef .tc main_arg6) := by
  unfold rv5; exact (by keepsR : _ = rv4 V0 (Proc.devRef .tc main_arg6)).trans (rv4_arg6 V0)
theorem rv5_arg7 : rv5 V0 (Proc.devRef .tc main_arg7) = V0 (Proc.devRef .tc main_arg7) := by
  unfold rv5; exact (by keepsR : _ = rv4 V0 (Proc.devRef .tc main_arg7)).trans (rv4_arg7 V0)
theorem rv5_arg8 : rv5 V0 (Proc.devRef .tc main_arg8) = V0 (Proc.devRef .tc main_arg8) := by
  unfold rv5; exact (by keepsR : _ = rv4 V0 (Proc.devRef .tc main_arg8)).trans (rv4_arg8 V0)
theorem rv5_arg9 : rv5 V0 (Proc.devRef .tc main_arg9) = V0 (Proc.devRef .tc main_arg9) := by
  unfold rv5; exact (by keepsR : _ = rv4 V0 (Proc.devRef .tc main_arg9)).trans (rv4_arg9 V0)
theorem rv5_arg10 : rv5 V0 (Proc.devRef .tc main_arg10) = V0 (Proc.devRef .tc main_arg10) := by
  unfold rv5; exact (by keepsR : _ = rv4 V0 (Proc.devRef .tc main_arg10)).trans (rv4_arg10 V0)
theorem rv5_arg11 : rv5 V0 (Proc.devRef .tc main_arg11) = V0 (Proc.devRef .tc main_arg11) := by
  unfold rv5; exact (by keepsR : _ = rv4 V0 (Proc.devRef .tc main_arg11)).trans (rv4_arg11 V0)

/-! ## The edge index vectors and the edge coefficients -/

set_option maxHeartbeats 4000000 in
theorem rv1_v3 : rv1 V0 (Proc.devRef .tc main_v3) = val_main_v3 (F := F) (V0 (Proc.devRef .tc main_arg1)) := by
  unfold rv1; part_read_rw <;> rfl
set_option maxHeartbeats 4000000 in
theorem rv1_v6 : rv1 V0 (Proc.devRef .tc main_v6) = val_main_v6 (F := F) (V0 (Proc.devRef .tc main_arg1)) := by
  unfold rv1; part_read_rw <;> rfl
set_option maxHeartbeats 4000000 in
theorem rv1_v28 : rv1 V0 (Proc.devRef .tc main_v28) = val_main_v28 (F := F) (V0 (Proc.devRef .tc main_arg1)) := by
  unfold rv1; part_read_rw <;> rfl

/-! ## The first layer -/

set_option maxHeartbeats 8000000 in
theorem rv2_v71 : rv2 V0 (Proc.devRef .tc main_v71) = val_main_v71 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold rv2; part_read
  rw [rv1_v3, rv1_v6, rv1_v28, rv1_arg0, rv1_arg2, rv1_arg3, rv1_arg4, rv1_arg5]
  rfl
theorem rv2_v3 : rv2 V0 (Proc.devRef .tc main_v3) = val_main_v3 (F := F) (V0 (Proc.devRef .tc main_arg1)) := by
  unfold rv2; exact (by keepsR : _ = rv1 V0 (Proc.devRef .tc main_v3)).trans (rv1_v3 V0)
theorem rv2_v6 : rv2 V0 (Proc.devRef .tc main_v6) = val_main_v6 (F := F) (V0 (Proc.devRef .tc main_arg1)) := by
  unfold rv2; exact (by keepsR : _ = rv1 V0 (Proc.devRef .tc main_v6)).trans (rv1_v6 V0)
theorem rv2_v28 : rv2 V0 (Proc.devRef .tc main_v28) = val_main_v28 (F := F) (V0 (Proc.devRef .tc main_arg1)) := by
  unfold rv2; exact (by keepsR : _ = rv1 V0 (Proc.devRef .tc main_v28)).trans (rv1_v28 V0)

/-! ## The second layer -/

set_option maxHeartbeats 8000000 in
theorem rv3_v114 : rv3 V0 (Proc.devRef .tc main_v114) = val_main_v114 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold rv3; part_read
  rw [rv2_v71, rv2_v3, rv2_v6, rv2_v28, rv2_arg6, rv2_arg7, rv2_arg8, rv2_arg9]
  rfl
theorem rv3_v3 : rv3 V0 (Proc.devRef .tc main_v3) = val_main_v3 (F := F) (V0 (Proc.devRef .tc main_arg1)) := by
  unfold rv3; exact (by keepsR : _ = rv2 V0 (Proc.devRef .tc main_v3)).trans (rv2_v3 V0)
theorem rv3_v6 : rv3 V0 (Proc.devRef .tc main_v6) = val_main_v6 (F := F) (V0 (Proc.devRef .tc main_arg1)) := by
  unfold rv3; exact (by keepsR : _ = rv2 V0 (Proc.devRef .tc main_v6)).trans (rv2_v6 V0)
theorem rv3_v28 : rv3 V0 (Proc.devRef .tc main_v28) = val_main_v28 (F := F) (V0 (Proc.devRef .tc main_arg1)) := by
  unfold rv3; exact (by keepsR : _ = rv2 V0 (Proc.devRef .tc main_v28)).trans (rv2_v28 V0)

/-! ## The third layer -/

set_option maxHeartbeats 8000000 in
theorem rv4_v131 : rv4 V0 (Proc.devRef .tc main_v131) = val_main_v131 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold rv4; part_read
  rw [rv3_v114, rv3_v3, rv3_v6, rv3_v28, rv3_arg10, rv3_arg11]
  rfl

/-! ## The log-softmax -/

set_option maxHeartbeats 8000000 in
theorem rv5_v132 : rv5 V0 (Proc.devRef .tc main_v132) = val_main_v132 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold rv5; part_read_rw
  rw [rv4_v131]
  simp only [TRef.ofBuf_toBuf]
  rfl

/-! ## The run -/

/-- Every weakly fair execution of the reference's @main terminates, nothing faulting, with its result at the last stage
    function of the launch arguments and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v132)
          = val_main_v132 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨(h c main_v132).trans (by rw [after_ops_eq]; exact rv5_v132 (launchContents m c)),
     (h c main_arg0).trans (by rw [after_ops_eq]; exact rv5_arg0 (launchContents m c)),
     (h c main_arg1).trans (by rw [after_ops_eq]; exact rv5_arg1 (launchContents m c)),
     (h c main_arg2).trans (by rw [after_ops_eq]; exact rv5_arg2 (launchContents m c)),
     (h c main_arg3).trans (by rw [after_ops_eq]; exact rv5_arg3 (launchContents m c)),
     (h c main_arg4).trans (by rw [after_ops_eq]; exact rv5_arg4 (launchContents m c)),
     (h c main_arg5).trans (by rw [after_ops_eq]; exact rv5_arg5 (launchContents m c)),
     (h c main_arg6).trans (by rw [after_ops_eq]; exact rv5_arg6 (launchContents m c)),
     (h c main_arg7).trans (by rw [after_ops_eq]; exact rv5_arg7 (launchContents m c)),
     (h c main_arg8).trans (by rw [after_ops_eq]; exact rv5_arg8 (launchContents m c)),
     (h c main_arg9).trans (by rw [after_ops_eq]; exact rv5_arg9 (launchContents m c)),
     (h c main_arg10).trans (by rw [after_ops_eq]; exact rv5_arg10 (launchContents m c)),
     (h c main_arg11).trans (by rw [after_ops_eq]; exact rv5_arg11 (launchContents m c))⟩)
    (run_fold m ρ)

end Cert.ReferenceIdeal.RefStages

end
-- ==== Proof.lean ====
/-
  The certificate of a three-layer graph convolution network whose dense projections run as Pallas kernels.

  Reference: for node features x [50000,128] and an edge list, three layers of  conv(h) = scatter-add over the edges'
  targets of (h @ W)[source] · coefficient, plus bias — the first two followed by batch normalisation over the node axis
  and relu — and a row-wise log-softmax of the 40-column result. The edge list gets a self loop per node, and the
  coefficient of an edge is rsqrt(max(deg,1)) at its source times the same at its target.

  Kernel program: the same host operations, with each projection h @ W computed by a pallas_call over 50 row blocks of
  1000 nodes (the body is one matrix product of the block by the whole weight matrix into a zero accumulator), and the last
  layer computed at width 128 on a weight matrix and a bias padded with zero columns, then cut back to 40 columns.

  At the ideal values the two are equal with no side condition: a block's product is the restriction of the whole product
  (a sum over the 128 contracted entries either way), the host operations between the projections are the same operations
  of equal values, and the padded columns of the last layer never reach the first 40 columns (the gather, the scaling, the
  scatter-add and the bias act column by column). Nothing is distributed or cancelled, so the finiteness of the inputs
  is not used.

  The frames of the two kernel programs are the generated ones; the reference's frame is its run with the result dropped.
  The idealization rewrote no operation, so `preserves` is trivial.
-/
import proofs.«411127_j66872640799057_3_alg».proof.Defs
import proofs.«411127_j66872640799057_3_alg».proof.Proof.Gen.Kernel.Frame
import proofs.«411127_j66872640799057_3_alg».proof.Proof.Gen.Pre_finite_inputs
import proofs.«411127_j66872640799057_3_alg».proof.Proof.KRun
import proofs.«411127_j66872640799057_3_alg».proof.Proof.KStages
import proofs.«411127_j66872640799057_3_alg».proof.Proof.RefStages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.RefStages.ref_run (F := Ideal) m ρ)

/-- Both programs end with the result at the reference's last stage function of the (agreeing) arguments. -/
theorem algebraic : Cert.algebraic_KernelIdeal_ReferenceIdeal := by
  intro m ρ m' ρ' _ hagree
  refine ⟨fun c => Cert.ReferenceIdeal.RefRead.val_main_v132 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.KStages.result_eq m ρ c), (h c).2⟩)
      (Cert.KernelIdeal.Gen.run_main (F := Ideal) m ρ)
  · refine (θ_run Cert.ReferenceIdeal.defs _ _).mono (fun _ h c => ⟨(h c).1.trans ?_, (h c).2⟩)
      (Cert.ReferenceIdeal.RefStages.ref_run (F := Ideal) m' ρ')
    obtain ⟨h0, h1, h2, h3, h4, h5, h6, h7, h8, h9, h10, h11⟩ := hagree c
    rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
